-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x3125x2 : Shape := ⟨3, ![1024, 3125, 2]⟩
abbrev S1024x3125x4 : Shape := ⟨3, ![1024, 3125, 4]⟩
abbrev S1024x3125 : Shape := ⟨2, ![1024, 3125]⟩
abbrev S_ : Shape := ⟨0, ![]⟩

class Facts : Prop where
  bcast_S_S1024x3125x2 : S_.BroadcastsInDim S1024x3125x2 (![] : Fin 0 → Fin S1024x3125x2.rank)
  reducesTo_S1024x3125x2_S_d0_1_2 : S1024x3125x2.ReducesTo [0, 1, 2] S_
  h_S_ : 0 < S_.numel
  bcast_S_S1024x3125x4 : S_.BroadcastsInDim S1024x3125x4 (![] : Fin 0 → Fin S1024x3125x4.rank)
  reducesTo_S1024x3125x4_S_d0_1_2 : S1024x3125x4.ReducesTo [0, 1, 2] S_

variable [Facts]

def fn {F : FTy → Type} [FloatOps F] (main_arg0 : FVec F S1024x3125x2 .f32) (main_arg1 : FVec F S1024x3125x4 .f32) (main_arg2 : FVec F S1024x3125x4 .f32) (main_arg3 : IVec S1024x3125 32) : IVec S_ 1 :=
  let main_v0 : FVec F S1024x3125x2 .f32 := Host.absf main_arg0
  let main_cst : FVec F S_ .f32 := constant S_ .f32 0x7F800000#32
  let main_v1 : FVec F S1024x3125x2 .f32 := broadcastInDim S1024x3125x2 ![] bcast_S_S1024x3125x2 main_cst
  let main_v2 : IVec S1024x3125x2 1 := cmpf .olt main_v0 main_v1
  let main_c : IVec S_ 1 := constantI S_ 1 1#1
  let main_v3 : IVec S_ 1 := (fun x v => Host.reduce IntOp.andi x v reducesTo_S1024x3125x2_S_d0_1_2 h_S_) main_v2 main_c
  let main_v4 : FVec F S1024x3125x4 .f32 := Host.absf main_arg1
  let main_cst_0 : FVec F S_ .f32 := constant S_ .f32 0x7F800000#32
  let main_v5 : FVec F S1024x3125x4 .f32 := broadcastInDim S1024x3125x4 ![] bcast_S_S1024x3125x4 main_cst_0
  let main_v6 : IVec S1024x3125x4 1 := cmpf .olt main_v4 main_v5
  let main_c_1 : IVec S_ 1 := constantI S_ 1 1#1
  let main_v7 : IVec S_ 1 := (fun x v => Host.reduce IntOp.andi x v reducesTo_S1024x3125x4_S_d0_1_2 h_S_) main_v6 main_c_1
  let main_v8 : IVec S_ 1 := andi main_v3 main_v7
  let main_v9 : FVec F S1024x3125x4 .f32 := Host.absf main_arg2
  let main_cst_2 : FVec F S_ .f32 := constant S_ .f32 0x7F800000#32
  let main_v10 : FVec F S1024x3125x4 .f32 := broadcastInDim S1024x3125x4 ![] bcast_S_S1024x3125x4 main_cst_2
  let main_v11 : IVec S1024x3125x4 1 := cmpf .olt main_v9 main_v10
  let main_c_3 : IVec S_ 1 := constantI S_ 1 1#1
  let main_v12 : IVec S_ 1 := (fun x v => Host.reduce IntOp.andi x v reducesTo_S1024x3125x4_S_d0_1_2 h_S_) main_v11 main_c_3
  let main_v13 : IVec S_ 1 := andi main_v8 main_v12
  main_v13
-- ==== Kernel.lean ====
abbrev S1024x3125x2 : Shape := ⟨3, ![1024, 3125, 2]⟩
abbrev S1024x3125x4 : Shape := ⟨3, ![1024, 3125, 4]⟩
abbrev S1024x3125 : Shape := ⟨2, ![1024, 3125]⟩
abbrev S1024x3125x1 : Shape := ⟨3, ![1024, 3125, 1]⟩
abbrev S1024x1 : Shape := ⟨2, ![1024, 1]⟩
abbrev S64x3125 : Shape := ⟨2, ![64, 3125]⟩
abbrev S64x1 : Shape := ⟨2, ![64, 1]⟩
abbrev S64 : Shape := ⟨1, ![64]⟩
abbrev S_ : Shape := ⟨0, ![]⟩

abbrev nBuf : Space → Nat
  | .hbm => 37
  | .vmem => 26
  | .smem => 0
  | _ => 0

abbrev bufTy : (tb : Table) → Fin (tcTables nBuf tb) → BufTy
  | .hbm, ⟨0, _⟩ => ⟨S1024x3125x2, .f32⟩
  | .hbm, ⟨1, _⟩ => ⟨S1024x3125x4, .f32⟩
  | .hbm, ⟨2, _⟩ => ⟨S1024x3125x4, .f32⟩
  | .hbm, ⟨3, _⟩ => ⟨S1024x3125, .i32⟩
  | .hbm, ⟨4, _⟩ => ⟨S1024x3125x1, .f32⟩
  | .hbm, ⟨5, _⟩ => ⟨S1024x3125, .f32⟩
  | .hbm, ⟨6, _⟩ => ⟨S1024x3125x1, .f32⟩
  | .hbm, ⟨7, _⟩ => ⟨S1024x3125, .f32⟩
  | .hbm, ⟨8, _⟩ => ⟨S1024x3125x1, .f32⟩
  | .hbm, ⟨9, _⟩ => ⟨S1024x3125, .f32⟩
  | .hbm, ⟨10, _⟩ => ⟨S1024x3125x1, .f32⟩
  | .hbm, ⟨11, _⟩ => ⟨S1024x3125, .f32⟩
  | .hbm, ⟨12, _⟩ => ⟨S1024x3125x1, .f32⟩
  | .hbm, ⟨13, _⟩ => ⟨S1024x3125, .f32⟩
  | .hbm, ⟨14, _⟩ => ⟨S1024x3125x1, .f32⟩
  | .hbm, ⟨15, _⟩ => ⟨S1024x3125, .f32⟩
  | .hbm, ⟨16, _⟩ => ⟨S1024x3125x1, .f32⟩
  | .hbm, ⟨17, _⟩ => ⟨S1024x3125, .f32⟩
  | .hbm, ⟨18, _⟩ => ⟨S1024x3125x1, .f32⟩
  | .hbm, ⟨19, _⟩ => ⟨S1024x3125, .f32⟩
  | .hbm, ⟨20, _⟩ => ⟨S1024x3125x1, .f32⟩
  | .hbm, ⟨21, _⟩ => ⟨S1024x3125, .f32⟩
  | .hbm, ⟨22, _⟩ => ⟨S1024x3125x1, .f32⟩
  | .hbm, ⟨23, _⟩ => ⟨S1024x3125, .f32⟩
  | .hbm, ⟨24, _⟩ => ⟨S1024x1, .f32⟩
  | .hbm, ⟨25, _⟩ => ⟨S1024x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S64x3125, .f32⟩
  | .local _ .vmem, ⟨1, _⟩ => ⟨S64x3125, .f32⟩
  | .local _ .vmem, ⟨2, _⟩ => ⟨S64x3125, .f32⟩
  | .local _ .vmem, ⟨3, _⟩ => ⟨S64x3125, .f32⟩
  | .local _ .vmem, ⟨4, _⟩ => ⟨S64x3125, .f32⟩
  | .local _ .vmem, ⟨5, _⟩ => ⟨S64x3125, .f32⟩
  | .local _ .vmem, ⟨6, _⟩ => ⟨S64x3125, .f32⟩
  | .local _ .vmem, ⟨7, _⟩ => ⟨S64x3125, .f32⟩
  | .local _ .vmem, ⟨8, _⟩ => ⟨S64x3125, .f32⟩
  | .local _ .vmem, ⟨9, _⟩ => ⟨S64x3125, .f32⟩
  | .local _ .vmem, ⟨10, _⟩ => ⟨S64x3125, .f32⟩
  | .local _ .vmem, ⟨11, _⟩ => ⟨S64x3125, .f32⟩
  | .local _ .vmem, ⟨12, _⟩ => ⟨S64x3125, .f32⟩
  | .local _ .vmem, ⟨13, _⟩ => ⟨S64x3125, .f32⟩
  | .local _ .vmem, ⟨14, _⟩ => ⟨S64x3125, .f32⟩
  | .local _ .vmem, ⟨15, _⟩ => ⟨S64x3125, .f32⟩
  | .local _ .vmem, ⟨16, _⟩ => ⟨S64x3125, .f32⟩
  | .local _ .vmem, ⟨17, _⟩ => ⟨S64x3125, .f32⟩
  | .local _ .vmem, ⟨18, _⟩ => ⟨S64x3125, .f32⟩
  | .local _ .vmem, ⟨19, _⟩ => ⟨S64x3125, .f32⟩
  | .local _ .vmem, ⟨20, _⟩ => ⟨S64x3125, .i32⟩
  | .local _ .vmem, ⟨21, _⟩ => ⟨S64x3125, .i32⟩
  | .local _ .vmem, ⟨22, _⟩ => ⟨S64x1, .f32⟩
  | .local _ .vmem, ⟨23, _⟩ => ⟨S64x1, .f32⟩
  | .local _ .vmem, ⟨24, _⟩ => ⟨S64x1, .f32⟩
  | .local _ .vmem, ⟨25, _⟩ => ⟨S64x1, .f32⟩
  | _, _ => ⟨S1024x3125x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_cst : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3125 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3125 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3125 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3125 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3125 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3125 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3125 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3125 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x3125 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x3125 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x3125 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S1024x3125x2_S1024x3125x1_0_0_0 : S1024x3125x2.Slices ![0, 0, 0] S1024x3125x1
  shapeCasts_S1024x3125x1_S1024x3125 : S1024x3125x1.ShapeCasts S1024x3125
  slices_S1024x3125x2_S1024x3125x1_0_0_1 : S1024x3125x2.Slices ![0, 0, 1] S1024x3125x1
  slices_S1024x3125x4_S1024x3125x1_0_0_0 : S1024x3125x4.Slices ![0, 0, 0] S1024x3125x1
  slices_S1024x3125x4_S1024x3125x1_0_0_1 : S1024x3125x4.Slices ![0, 0, 1] S1024x3125x1
  slices_S1024x3125x4_S1024x3125x1_0_0_2 : S1024x3125x4.Slices ![0, 0, 2] S1024x3125x1
  slices_S1024x3125x4_S1024x3125x1_0_0_3 : S1024x3125x4.Slices ![0, 0, 3] S1024x3125x1
  inb_S64x3125_S64x3125_0_0 : ∀ a, (![0, 0] : Fin 2 → Nat) a + S64x3125.size a ≤ S64x3125.size a
  h_S64x3125 : 0 < S64x3125.numel
  shapeCasts_S64x3125_S64x3125 : S64x3125.ShapeCasts S64x3125
  natLt_1_32 : 1 < 32
  reduces_S64x3125_S64 : S64x3125.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  reducesTo_S1024x1_S_d0_1 : S1024x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3125.size a ≤ S1024x3125.size a
  hwx0_0 : ∀ i : grid0.Coords, EltTy.bits .f32 = 32 ∨ (Rect.block (s := S1024x3125) S64x3125.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x3125.size a ≤ S1024x3125.size a
  hwx0_1 : ∀ i : grid0.Coords, EltTy.bits .f32 = 32 ∨ (Rect.block (s := S1024x3125) S64x3125.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x3125.size a ≤ S1024x3125.size a
  hwx0_2 : ∀ i : grid0.Coords, EltTy.bits .f32 = 32 ∨ (Rect.block (s := S1024x3125) S64x3125.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x3125.size a ≤ S1024x3125.size a
  hwx0_3 : ∀ i : grid0.Coords, EltTy.bits .f32 = 32 ∨ (Rect.block (s := S1024x3125) S64x3125.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x3125.size a ≤ S1024x3125.size a
  hwx0_4 : ∀ i : grid0.Coords, EltTy.bits .f32 = 32 ∨ (Rect.block (s := S1024x3125) S64x3125.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x3125.size a ≤ S1024x3125.size a
  hwx0_5 : ∀ i : grid0.Coords, EltTy.bits .f32 = 32 ∨ (Rect.block (s := S1024x3125) S64x3125.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x3125.size a ≤ S1024x3125.size a
  hwx0_6 : ∀ i : grid0.Coords, EltTy.bits .f32 = 32 ∨ (Rect.block (s := S1024x3125) S64x3125.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x3125.size a ≤ S1024x3125.size a
  hwx0_7 : ∀ i : grid0.Coords, EltTy.bits .f32 = 32 ∨ (Rect.block (s := S1024x3125) S64x3125.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x3125.size a ≤ S1024x3125.size a
  hwx0_8 : ∀ i : grid0.Coords, EltTy.bits .f32 = 32 ∨ (Rect.block (s := S1024x3125) S64x3125.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x3125.size a ≤ S1024x3125.size a
  hwx0_9 : ∀ i : grid0.Coords, EltTy.bits .f32 = 32 ∨ (Rect.block (s := S1024x3125) S64x3125.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x3125.size a ≤ S1024x3125.size a
  hwx0_10 : ∀ i : grid0.Coords, EltTy.bits .i32 = 32 ∨ (Rect.block (s := S1024x3125) S64x3125.size (cc0_transform_10 i) (hinb0_10 i)).WholeWords (EltTy.packing .i32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S1024x1.size a
  hwx0_11 : ∀ i : grid0.Coords, EltTy.bits .f32 = 32 ∨ (Rect.block (s := S1024x1) S64x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S1024x1.size a
  hwx0_12 : ∀ i : grid0.Coords, EltTy.bits .f32 = 32 ∨ (Rect.block (s := S1024x1) S64x1.size (cc0_transform_12 i) (hinb0_12 i)).WholeWords (EltTy.packing .f32)

variable [Facts₀]

abbrev win0_0 : Pipeline.Window sig grid0 :=
  Pipeline.Window.ofSpec (Memref.whole main_v1) S64x3125.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x3125.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x3125.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x3125.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x3125.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x3125.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x3125.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15) S64x3125.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17) S64x3125.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19) S64x3125.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg3) S64x3125.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S64x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S64x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S1024x3125x2 : Shape := ⟨3, ![1024, 3125, 2]⟩
abbrev S1024x3125x4 : Shape := ⟨3, ![1024, 3125, 4]⟩
abbrev S1024x3125 : Shape := ⟨2, ![1024, 3125]⟩
abbrev S_ : Shape := ⟨0, ![]⟩
abbrev S1024 : Shape := ⟨1, ![1024]⟩
abbrev S1024x3125x1 : Shape := ⟨3, ![1024, 3125, 1]⟩

abbrev nBuf : Space → Nat
  | .hbm => 110
  | .vmem => 0
  | .smem => 0
  | _ => 0

abbrev bufTy : (tb : Table) → Fin (tcTables nBuf tb) → BufTy
  | .hbm, ⟨0, _⟩ => ⟨S1024x3125x2, .f32⟩
  | .hbm, ⟨1, _⟩ => ⟨S1024x3125x4, .f32⟩
  | .hbm, ⟨2, _⟩ => ⟨S1024x3125x4, .f32⟩
  | .hbm, ⟨3, _⟩ => ⟨S1024x3125, .i32⟩
  | .hbm, ⟨4, _⟩ => ⟨S_, .i32⟩
  | .hbm, ⟨5, _⟩ => ⟨S1024x3125, .i32⟩
  | .hbm, ⟨6, _⟩ => ⟨S1024x3125, .i1⟩
  | .hbm, ⟨7, _⟩ => ⟨S_, .i32⟩
  | .hbm, ⟨8, _⟩ => ⟨S1024x3125, .i32⟩
  | .hbm, ⟨9, _⟩ => ⟨S1024x3125, .i1⟩
  | .hbm, ⟨10, _⟩ => ⟨S1024x3125, .i32⟩
  | .hbm, ⟨11, _⟩ => ⟨S_, .i32⟩
  | .hbm, ⟨12, _⟩ => ⟨S1024, .i32⟩
  | .hbm, ⟨13, _⟩ => ⟨S1024, .f32⟩
  | .hbm, ⟨14, _⟩ => ⟨S1024x3125, .i32⟩
  | .hbm, ⟨15, _⟩ => ⟨S_, .i32⟩
  | .hbm, ⟨16, _⟩ => ⟨S1024, .i32⟩
  | .hbm, ⟨17, _⟩ => ⟨S1024, .f32⟩
  | .hbm, ⟨18, _⟩ => ⟨S_, .f32⟩
  | .hbm, ⟨19, _⟩ => ⟨S1024x3125, .f32⟩
  | .hbm, ⟨20, _⟩ => ⟨S_, .f32⟩
  | .hbm, ⟨21, _⟩ => ⟨S1024x3125, .f32⟩
  | .hbm, ⟨22, _⟩ => ⟨S1024x3125, .f32⟩
  | .hbm, ⟨23, _⟩ => ⟨S1024x3125x1, .f32⟩
  | .hbm, ⟨24, _⟩ => ⟨S1024x3125x2, .f32⟩
  | .hbm, ⟨25, _⟩ => ⟨S1024x3125x2, .f32⟩
  | .hbm, ⟨26, _⟩ => ⟨S1024x3125x2, .f32⟩
  | .hbm, ⟨27, _⟩ => ⟨S_, .f32⟩
  | .hbm, ⟨28, _⟩ => ⟨S1024x3125, .f32⟩
  | .hbm, ⟨29, _⟩ => ⟨S1024x3125x1, .f32⟩
  | .hbm, ⟨30, _⟩ => ⟨S1024x3125x1, .f32⟩
  | .hbm, ⟨31, _⟩ => ⟨S1024x3125x2, .f32⟩
  | .hbm, ⟨32, _⟩ => ⟨S1024x3125x2, .f32⟩
  | .hbm, ⟨33, _⟩ => ⟨S1024x3125x1, .f32⟩
  | .hbm, ⟨34, _⟩ => ⟨S1024x3125, .f32⟩
  | .hbm, ⟨35, _⟩ => ⟨S1024x3125, .f32⟩
  | .hbm, ⟨36, _⟩ => ⟨S1024x3125x1, .f32⟩
  | .hbm, ⟨37, _⟩ => ⟨S1024x3125, .f32⟩
  | .hbm, ⟨38, _⟩ => ⟨S1024x3125, .f32⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S1024x3125, .f32⟩
  | .hbm, ⟨43, _⟩ => ⟨S1024x3125, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1024x3125, .f32⟩
  | .hbm, ⟨55, _⟩ => ⟨S1024x3125, .f32⟩
  | .hbm, ⟨56, _⟩ => ⟨S_, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024, .f32⟩
  | .hbm, ⟨62, _⟩ => ⟨S1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S1024x3125x4, .f32⟩
  | .hbm, ⟨71, _⟩ => ⟨S1024x3125x4, .f32⟩
  | .hbm, ⟨72, _⟩ => ⟨S_, .f32⟩
  | .hbm, ⟨73, _⟩ => ⟨S1024x3125x4, .f32⟩
  | .hbm, ⟨74, _⟩ => ⟨S1024x3125x4, .i1⟩
  | .hbm, ⟨75, _⟩ => ⟨S_, .f32⟩
  | .hbm, ⟨76, _⟩ => ⟨S1024x3125x4, .f32⟩
  | .hbm, ⟨77, _⟩ => ⟨S1024x3125x4, .f32⟩
  | .hbm, ⟨78, _⟩ => ⟨S1024x3125x4, .f32⟩
  | .hbm, ⟨79, _⟩ => ⟨S_, .f32⟩
  | .hbm, ⟨80, _⟩ => ⟨S1024x3125x4, .f32⟩
  | .hbm, ⟨81, _⟩ => ⟨S1024x3125x4, .f32⟩
  | .hbm, ⟨82, _⟩ => ⟨S1024x3125x4, .f32⟩
  | .hbm, ⟨83, _⟩ => ⟨S_, .f32⟩
  | .hbm, ⟨84, _⟩ => ⟨S1024x3125, .f32⟩
  | .hbm, ⟨85, _⟩ => ⟨S_, .f32⟩
  | .hbm, ⟨86, _⟩ => ⟨S1024x3125, .f32⟩
  | .hbm, ⟨87, _⟩ => ⟨S1024x3125, .f32⟩
  | .hbm, ⟨88, _⟩ => ⟨S1024x3125, .f32⟩
  | .hbm, ⟨89, _⟩ => ⟨S1024x3125, .f32⟩
  | .hbm, ⟨90, _⟩ => ⟨S_, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S_, .f32⟩
  | .hbm, ⟨97, _⟩ => ⟨S1024, .f32⟩
  | .hbm, ⟨98, _⟩ => ⟨S1024, .i1⟩
  | .hbm, ⟨99, _⟩ => ⟨S_, .f32⟩
  | .hbm, ⟨100, _⟩ => ⟨S_, .f32⟩
  | .hbm, ⟨101, _⟩ => ⟨S1024, .f32⟩
  | .hbm, ⟨102, _⟩ => ⟨S1024, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S1024x3125x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_call0_cst : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_cst_1 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_6 : Ref sig .tc := ⟨.hbm, 56, rfl⟩
abbrev main_v28 : Ref sig .tc := ⟨.hbm, 57, rfl⟩
abbrev main_cst_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_8 : Ref sig .tc := ⟨.hbm, 63, rfl⟩
abbrev main_v33 : Ref sig .tc := ⟨.hbm, 64, rfl⟩
abbrev main_v34 : Ref sig .tc := ⟨.hbm, 65, rfl⟩
abbrev main_cst_9 : Ref sig .tc := ⟨.hbm, 66, rfl⟩
abbrev main_v35 : Ref sig .tc := ⟨.hbm, 67, rfl⟩
abbrev main_cst_10 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_11 : Ref sig .tc := ⟨.hbm, 72, rfl⟩
abbrev main_v39 : Ref sig .tc := ⟨.hbm, 73, rfl⟩
abbrev main_v40 : Ref sig .tc := ⟨.hbm, 74, rfl⟩
abbrev main_cst_12 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_13 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_14 : Ref sig .tc := ⟨.hbm, 83, rfl⟩
abbrev main_v47 : Ref sig .tc := ⟨.hbm, 84, rfl⟩
abbrev main_cst_15 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_16 : Ref sig .tc := ⟨.hbm, 90, rfl⟩
abbrev main_v52 : Ref sig .tc := ⟨.hbm, 91, rfl⟩
abbrev main_cst_17 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_18 : Ref sig .tc := ⟨.hbm, 96, rfl⟩
abbrev main_v56 : Ref sig .tc := ⟨.hbm, 97, rfl⟩
abbrev main_v57 : Ref sig .tc := ⟨.hbm, 98, rfl⟩
abbrev main_cst_19 : Ref sig .tc := ⟨.hbm, 99, rfl⟩
abbrev main_call3_v0 : Ref sig .tc := ⟨.hbm, 100, rfl⟩
abbrev main_call3_v1 : Ref sig .tc := ⟨.hbm, 101, rfl⟩
abbrev main_v58 : Ref sig .tc := ⟨.hbm, 102, rfl⟩
abbrev main_cst_20 : Ref sig .tc := ⟨.hbm, 103, rfl⟩
abbrev main_v59 : Ref sig .tc := ⟨.hbm, 104, rfl⟩
abbrev main_cst_21 : Ref sig .tc := ⟨.hbm, 105, rfl⟩
abbrev main_v60 : Ref sig .tc := ⟨.hbm, 106, rfl⟩
abbrev main_cst_22 : Ref sig .tc := ⟨.hbm, 107, rfl⟩
abbrev main_v61 : Ref sig .tc := ⟨.hbm, 108, rfl⟩
abbrev main_v62 : Ref sig .tc := ⟨.hbm, 109, rfl⟩

abbrev nD : Nat := 1
abbrev τ : Topo := Topo.v7x

variable {F : FTy → Type} [FloatOps F]

class Facts₀ : Prop where
  bcast_S_S1024x3125 : S_.BroadcastsInDim S1024x3125 (![] : Fin 0 → Fin S1024x3125.rank)
  natLt_1_32 : 1 < 32
  reducesTo_S1024x3125_S1024_d1 : S1024x3125.ReducesTo [1] S1024
  h_S_ : 0 < S_.numel
  reducesTo_S1024x3125x2_S1024x3125_d2 : S1024x3125x2.ReducesTo [2] S1024x3125
  bcast_S1024x3125_S1024x3125x1_0_1 : S1024x3125.BroadcastsInDim S1024x3125x1 (![0, 1] : Fin 2 → Fin S1024x3125x1.rank)
  bcast_S1024x3125x1_S1024x3125x2_0_1_2 : S1024x3125x1.BroadcastsInDim S1024x3125x2 (![0, 1, 2] : Fin 3 → Fin S1024x3125x2.rank)
  slices_S1024x3125x2_S1024x3125x1_0_0_1 : S1024x3125x2.Slices ![0, 0, 1] S1024x3125x1
  shapeCasts_S1024x3125x1_S1024x3125 : S1024x3125x1.ShapeCasts S1024x3125
  slices_S1024x3125x2_S1024x3125x1_0_0_0 : S1024x3125x2.Slices ![0, 0, 0] S1024x3125x1
  bcast_S_S1024 : S_.BroadcastsInDim S1024 (![] : Fin 0 → Fin S1024.rank)
  reducesTo_S1024_S_d0 : S1024.ReducesTo [0] S_
  bcast_S_S1024x3125x4 : S_.BroadcastsInDim S1024x3125x4 (![] : Fin 0 → Fin S1024x3125x4.rank)
  reducesTo_S1024x3125x4_S1024x3125_d2 : S1024x3125x4.ReducesTo [2] S1024x3125

variable [Facts₀]

class Facts : Prop extends Facts₀ where

variable [Facts]
-- ==== Proof.RefRunM.lean ====
/-
  The reference's run, read in two stretches.

  The reference's @main is a straight line of 106 host operations, each writing a buffer of its own once. Its first 29
  compute the label masks, the two counts and the log-softmax of the logits; the other 77 read from them only the two
  masks, the two counts, the log-probabilities and the two box arguments. Running the whole line is running the second
  stretch from what the first leaves, so each result is read off the second stretch alone, over whatever the first
  left, and the first stretch's five values are read off it alone: neither reading ever holds the whole composed term.
-/
import proofs.«429505_j27590869909512_4_alg».proof.Proof.RefRead
import Idealize.ShloMosaic.Lib.StableHlo.Run
import Idealize.ShloMosaic.Lib.Pipeline.Frame

noncomputable section

namespace Cert.ReferenceIdeal.RunM

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Contents moved to a typed reference's own type and back -/

/-- Contents at the value's type, moved to the buffer's type and back, are unchanged. -/
theorem ofBuf_toBuf {T : BufTy} (x : TRef sig T) (v : T.Contents (Elt F)) : x.ofBuf (x.toBuf v) = v := by
  obtain ⟨r, h, _, _⟩ := x
  subst h
  rfl

/-- Contents at the buffer's type, moved to the value's type and back, are unchanged. -/
theorem toBuf_ofBuf {T : BufTy} (x : TRef sig T) (v : x.ref.ty.Contents (Elt F)) : x.toBuf (x.ofBuf v) = v := by
  obtain ⟨r, h, _, _⟩ := x
  subst h
  rfl

/-- Running the line is running its four stretches in turn: the masks, counts and row maximum (19 operations), the shifted
    logits (3), the rest of the log-softmax (7), and everything after it (77). -/
theorem after_cut (V : Valuation τ sig (Elt F)) :
    after (ops (F := F)) V = after ((ops (F := F)).drop 29) (after (((ops (F := F)).drop 22).take 7) (after (((ops (F := F)).drop 19).take 3) (after ((ops (F := F)).take 19) V))) := by
  rw [← StableHlo.after_append, ← StableHlo.after_append, ← StableHlo.after_append]
  congr 1

/-! ## The first stretch: the masks, the counts, the row maximum -/

theorem s1_v1 (V : Valuation τ sig (Elt F)) : after ((ops (F := F)).take 19) V (Proc.devRef .tc main_v1) = val_main_v1 (F := F) (V (Proc.devRef .tc main_arg3)) := by
  simp only [ops, List.take_succ_cons, List.take_zero, List.drop_succ_cons, List.drop_zero]
  after_results_simp <;> rfl

theorem s1_v3 (V : Valuation τ sig (Elt F)) : after ((ops (F := F)).take 19) V (Proc.devRef .tc main_v3) = val_main_v3 (F := F) (V (Proc.devRef .tc main_arg3)) := by
  simp only [ops, List.take_succ_cons, List.take_zero, List.drop_succ_cons, List.drop_zero]
  after_results_simp <;> rfl

theorem s1_v6 (V : Valuation τ sig (Elt F)) : after ((ops (F := F)).take 19) V (Proc.devRef .tc main_v6) = val_main_v6 (F := F) (V (Proc.devRef .tc main_arg3)) := by
  simp only [ops, List.take_succ_cons, List.take_zero, List.drop_succ_cons, List.drop_zero]
  after_results_simp <;> rfl

theorem s1_v9 (V : Valuation τ sig (Elt F)) : after ((ops (F := F)).take 19) V (Proc.devRef .tc main_v9) = val_main_v9 (F := F) (V (Proc.devRef .tc main_arg3)) := by
  simp only [ops, List.take_succ_cons, List.take_zero, List.drop_succ_cons, List.drop_zero]
  after_results_simp <;> rfl

/-- The row maximum. The maximum is folded over the whole logits array: the two sides are brought to the same text before
    they are compared, so that the fold is never opened. -/
theorem s1_c2 (V : Valuation τ sig (Elt F)) : after ((ops (F := F)).take 19) V (Proc.devRef .tc main_call0_v2) = val_main_call0_v2 (F := F) (V (Proc.devRef .tc main_arg0)) := by
  simp only [ops, List.take_succ_cons, List.take_zero, List.drop_succ_cons, List.drop_zero]
  after_results_simp
  have eOut : ∀ y : (⟨S1024x3125, .f32⟩ : BufTy).Contents (Elt F), (TRef.of (T := ⟨S1024x3125, .f32⟩) main_call0_v2).toBuf y = y := fun _ => rfl
  have eIn : ∀ y, (TRef.of (T := ⟨S1024x3125x2, .f32⟩) main_arg0).ofBuf (Val := Elt F) y = y := fun _ => rfl
  simp only [ofBuf_toBuf, eOut, eIn]
  rfl

theorem s1_arg0 (V : Valuation τ sig (Elt F)) : after ((ops (F := F)).take 19) V (Proc.devRef .tc main_arg0) = V (Proc.devRef .tc main_arg0) := by
  simp only [ops, List.take_succ_cons, List.take_zero, List.drop_succ_cons, List.drop_zero]
  after_results_simp <;> rfl

theorem s1_arg1 (V : Valuation τ sig (Elt F)) : after ((ops (F := F)).take 19) V (Proc.devRef .tc main_arg1) = V (Proc.devRef .tc main_arg1) := by
  simp only [ops, List.take_succ_cons, List.take_zero, List.drop_succ_cons, List.drop_zero]
  after_results_simp <;> rfl

theorem s1_arg2 (V : Valuation τ sig (Elt F)) : after ((ops (F := F)).take 19) V (Proc.devRef .tc main_arg2) = V (Proc.devRef .tc main_arg2) := by
  simp only [ops, List.take_succ_cons, List.take_zero, List.drop_succ_cons, List.drop_zero]
  after_results_simp <;> rfl

/-! ## The second stretch: the shifted logits -/

theorem s2_c5 (W : Valuation τ sig (Elt F)) (x0 : (⟨S1024x3125x2, .f32⟩ : BufTy).Contents (Elt F))
    (h2 : W (Proc.devRef .tc main_call0_v2) = val_main_call0_v2 (F := F) x0) (h0 : W (Proc.devRef .tc main_arg0) = x0) :
    after (((ops (F := F)).drop 19).take 3) W (Proc.devRef .tc main_call0_v5) = val_main_call0_v5 (F := F) x0 := by
  simp only [ops, List.take_succ_cons, List.take_zero, List.drop_succ_cons, List.drop_zero]
  after_results_simp
  simp only [h2, h0]
  rfl

theorem s2_keep_v1 (W : Valuation τ sig (Elt F)) : after (((ops (F := F)).drop 19).take 3) W (Proc.devRef .tc main_v1) = W (Proc.devRef .tc main_v1) := by
  simp only [ops, List.take_succ_cons, List.take_zero, List.drop_succ_cons, List.drop_zero]
  after_results_simp

theorem s2_keep_v3 (W : Valuation τ sig (Elt F)) : after (((ops (F := F)).drop 19).take 3) W (Proc.devRef .tc main_v3) = W (Proc.devRef .tc main_v3) := by
  simp only [ops, List.take_succ_cons, List.take_zero, List.drop_succ_cons, List.drop_zero]
  after_results_simp

theorem s2_keep_v6 (W : Valuation τ sig (Elt F)) : after (((ops (F := F)).drop 19).take 3) W (Proc.devRef .tc main_v6) = W (Proc.devRef .tc main_v6) := by
  simp only [ops, List.take_succ_cons, List.take_zero, List.drop_succ_cons, List.drop_zero]
  after_results_simp

theorem s2_keep_v9 (W : Valuation τ sig (Elt F)) : after (((ops (F := F)).drop 19).take 3) W (Proc.devRef .tc main_v9) = W (Proc.devRef .tc main_v9) := by
  simp only [ops, List.take_succ_cons, List.take_zero, List.drop_succ_cons, List.drop_zero]
  after_results_simp

theorem s2_keep_arg1 (W : Valuation τ sig (Elt F)) : after (((ops (F := F)).drop 19).take 3) W (Proc.devRef .tc main_arg1) = W (Proc.devRef .tc main_arg1) := by
  simp only [ops, List.take_succ_cons, List.take_zero, List.drop_succ_cons, List.drop_zero]
  after_results_simp

theorem s2_keep_arg2 (W : Valuation τ sig (Elt F)) : after (((ops (F := F)).drop 19).take 3) W (Proc.devRef .tc main_arg2) = W (Proc.devRef .tc main_arg2) := by
  simp only [ops, List.take_succ_cons, List.take_zero, List.drop_succ_cons, List.drop_zero]
  after_results_simp

/-! ## The third stretch: the rest of the log-softmax -/

theorem s3_v10 (W : Valuation τ sig (Elt F)) (x0 : (⟨S1024x3125x2, .f32⟩ : BufTy).Contents (Elt F))
    (h5 : W (Proc.devRef .tc main_call0_v5) = val_main_call0_v5 (F := F) x0) :
    after (((ops (F := F)).drop 22).take 7) W (Proc.devRef .tc main_v10) = val_main_v10 (F := F) x0 := by
  simp only [ops, List.take_succ_cons, List.take_zero, List.drop_succ_cons, List.drop_zero]
  after_results_simp
  simp only [h5]
  rfl

theorem s3_keep_v1 (W : Valuation τ sig (Elt F)) : after (((ops (F := F)).drop 22).take 7) W (Proc.devRef .tc main_v1) = W (Proc.devRef .tc main_v1) := by
  simp only [ops, List.take_succ_cons, List.take_zero, List.drop_succ_cons, List.drop_zero]
  after_results_simp

theorem s3_keep_v3 (W : Valuation τ sig (Elt F)) : after (((ops (F := F)).drop 22).take 7) W (Proc.devRef .tc main_v3) = W (Proc.devRef .tc main_v3) := by
  simp only [ops, List.take_succ_cons, List.take_zero, List.drop_succ_cons, List.drop_zero]
  after_results_simp

theorem s3_keep_v6 (W : Valuation τ sig (Elt F)) : after (((ops (F := F)).drop 22).take 7) W (Proc.devRef .tc main_v6) = W (Proc.devRef .tc main_v6) := by
  simp only [ops, List.take_succ_cons, List.take_zero, List.drop_succ_cons, List.drop_zero]
  after_results_simp

theorem s3_keep_v9 (W : Valuation τ sig (Elt F)) : after (((ops (F := F)).drop 22).take 7) W (Proc.devRef .tc main_v9) = W (Proc.devRef .tc main_v9) := by
  simp only [ops, List.take_succ_cons, List.take_zero, List.drop_succ_cons, List.drop_zero]
  after_results_simp

theorem s3_keep_arg1 (W : Valuation τ sig (Elt F)) : after (((ops (F := F)).drop 22).take 7) W (Proc.devRef .tc main_arg1) = W (Proc.devRef .tc main_arg1) := by
  simp only [ops, List.take_succ_cons, List.take_zero, List.drop_succ_cons, List.drop_zero]
  after_results_simp

theorem s3_keep_arg2 (W : Valuation τ sig (Elt F)) : after (((ops (F := F)).drop 22).take 7) W (Proc.devRef .tc main_arg2) = W (Proc.devRef .tc main_arg2) := by
  simp only [ops, List.take_succ_cons, List.take_zero, List.drop_succ_cons, List.drop_zero]
  after_results_simp

/-! ## What the first three stretches leave, together -/

/-- After the log-softmax: the two masks, the two counts and the log-probabilities at their stages, the box arguments as launched. -/
theorem head (V : Valuation τ sig (Elt F)) :
    let W := after (((ops (F := F)).drop 22).take 7) (after (((ops (F := F)).drop 19).take 3) (after ((ops (F := F)).take 19) V))
    W (Proc.devRef .tc main_v1) = val_main_v1 (F := F) (V (Proc.devRef .tc main_arg3)) ∧ W (Proc.devRef .tc main_v3) = val_main_v3 (F := F) (V (Proc.devRef .tc main_arg3))
    ∧ W (Proc.devRef .tc main_v6) = val_main_v6 (F := F) (V (Proc.devRef .tc main_arg3)) ∧ W (Proc.devRef .tc main_v9) = val_main_v9 (F := F) (V (Proc.devRef .tc main_arg3))
    ∧ W (Proc.devRef .tc main_v10) = val_main_v10 (F := F) (V (Proc.devRef .tc main_arg0))
    ∧ W (Proc.devRef .tc main_arg1) = V (Proc.devRef .tc main_arg1) ∧ W (Proc.devRef .tc main_arg2) = V (Proc.devRef .tc main_arg2) := by
  intro W
  refine ⟨?_, ?_, ?_, ?_, ?_, ?_, ?_⟩
  · exact ((s3_keep_v1 _).trans (s2_keep_v1 _)).trans (s1_v1 V)
  · exact ((s3_keep_v3 _).trans (s2_keep_v3 _)).trans (s1_v3 V)
  · exact ((s3_keep_v6 _).trans (s2_keep_v6 _)).trans (s1_v6 V)
  · exact ((s3_keep_v9 _).trans (s2_keep_v9 _)).trans (s1_v9 V)
  · exact s3_v10 _ _ (s2_c5 _ _ (s1_c2 V) (s1_arg0 V))
  · exact ((s3_keep_arg1 _).trans (s2_keep_arg1 _)).trans (s1_arg1 V)
  · exact ((s3_keep_arg2 _).trans (s2_keep_arg2 _)).trans (s1_arg2 V)

/-! ## The results, read off the last stretch -/

set_option maxRecDepth 8192 in
set_option maxHeartbeats 8000000 in
theorem after_v36 (V : Valuation τ sig (Elt F)) :
    after (ops (F := F)) V (Proc.devRef .tc main_v36) = val_main_v36 (F := F) (V (Proc.devRef .tc main_arg0)) (V (Proc.devRef .tc main_arg3)) := by
  rw [after_cut]
  obtain ⟨h1, h3, h6, h9, h10, -, -⟩ := head V
  generalize after (((ops (F := F)).drop 22).take 7) (after (((ops (F := F)).drop 19).take 3) (after ((ops (F := F)).take 19) V)) = W at h1 h3 h6 h9 h10 ⊢
  simp only [ops, List.take_succ_cons, List.take_zero, List.drop_succ_cons, List.drop_zero]
  after_results_simp
  simp only [h1, h3, h6, h9, h10]
  rfl

set_option maxRecDepth 8192 in
set_option maxHeartbeats 8000000 in
theorem after_v60 (V : Valuation τ sig (Elt F)) :
    after (ops (F := F)) V (Proc.devRef .tc main_v60)
      = val_main_v60 (F := F) (V (Proc.devRef .tc main_arg1)) (V (Proc.devRef .tc main_arg2)) (V (Proc.devRef .tc main_arg3)) := by
  rw [after_cut]
  obtain ⟨h1, -, h6, -, -, ha1, ha2⟩ := head V
  generalize after (((ops (F := F)).drop 22).take 7) (after (((ops (F := F)).drop 19).take 3) (after ((ops (F := F)).take 19) V)) = W at h1 h6 ha1 ha2 ⊢
  simp only [ops, List.take_succ_cons, List.take_zero, List.drop_succ_cons, List.drop_zero]
  after_results_simp
  simp only [h1, h6, ha1, ha2]
  rfl

set_option maxRecDepth 8192 in
set_option maxHeartbeats 8000000 in
theorem after_v62 (V : Valuation τ sig (Elt F)) :
    after (ops (F := F)) V (Proc.devRef .tc main_v62)
      = val_main_v62 (F := F) (V (Proc.devRef .tc main_arg0)) (V (Proc.devRef .tc main_arg1)) (V (Proc.devRef .tc main_arg2)) (V (Proc.devRef .tc main_arg3)) := by
  rw [after_cut]
  obtain ⟨h1, h3, h6, h9, h10, ha1, ha2⟩ := head V
  generalize after (((ops (F := F)).drop 22).take 7) (after (((ops (F := F)).drop 19).take 3) (after ((ops (F := F)).take 19) V)) = W at h1 h3 h6 h9 h10 ha1 ha2 ⊢
  simp only [ops, List.take_succ_cons, List.take_zero, List.drop_succ_cons, List.drop_zero]
  after_results_simp
  simp only [h1, h3, h6, h9, h10, ha1, ha2]
  rfl

/-! ## The run -/

set_option maxRecDepth 8192 in
set_option maxHeartbeats 42400000 in
/-- Every weakly fair execution of the reference's @main terminates with its three results at their stages of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = val_main_v36 (F := F) (m ((c.tc : Thread nD τ).loc main_arg0)) (m ((c.tc : Thread nD τ).loc main_arg3))
      ∧ r.2.mem ((c.tc : Thread nD τ).loc main_v60) = val_main_v60 (F := F) (m ((c.tc : Thread nD τ).loc main_arg1)) (m ((c.tc : Thread nD τ).loc main_arg2)) (m ((c.tc : Thread nD τ).loc main_arg3))
      ∧ r.2.mem ((c.tc : Thread nD τ).loc main_v62) = val_main_v62 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v36).trans (after_v36 (launchContents m c)),
      (h c main_v60).trans (after_v60 (launchContents m c)),
      (h c main_v62).trans (after_v62 (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RunM

end
-- ==== Proof.Spec.lean ====
/-
  The SiamRPN loss as the two programs compute it, stated once, over the extended reals, with no program in sight.

  Per batch row the inputs are two class logits per anchor (a 0, a 1), four predicted and four target box
  coordinates per anchor (p k, q k), and an integer label per anchor (1 positive, 0 negative, anything else ignored).
  The row's classification loss is half the sum of the mean cross-entropy over its positive anchors (zero when it
  has none) and the mean cross-entropy over its negative anchors; its regression loss is the mean over its positive
  anchors of the per-anchor mean smooth-L1 distance of the four coordinates (zero when it has none). The three
  results are the mean of the first over the 1024 rows, the mean of the second, and the first plus five times the second.

  The two programs write these differently, and this file states BOTH writings, so that each program can be
  read onto its own writing and the two writings compared where no array is in sight:
    * the cross-entropies: softplus of the logit difference, max (x - y) 0 + log (1 + exp (-|x - y|)), against
      minus the log-softmax, which shifts by the row maximum and takes the log of the sum of two exponentials;
    * a row's counts: the sum over anchors of the mask as a float, against the 32-bit integer sum of the mask
      read as a signed integer;
    * the mask as a float: the one-bit compare widened to 32 bits and read signed, against it read unsigned;
    * the mean of four: the sum times the word 0.25, against the sum divided by the word 4.0.
  The float literals stay as their 32-bit words; which of them must be evaluated is the comparison's business.
-/
import Idealize.ShloMosaic.PureOps.Ideal
import Idealize.ShloMosaic.PureOps.Reduce
import Idealize.ShloMosaic.Lib.ValueIdx

noncomputable section

namespace Cert.SiamRpnLoss

open Idealize.ShloMosaic Idealize.ShloMosaic.ValueIdx

/-! ## The printed float words -/

abbrev w0 : EReal := Ideal.ofBits .f32 0x00000000#32
abbrev w1 : EReal := Ideal.ofBits .f32 0x3F800000#32
abbrev wHalf : EReal := Ideal.ofBits .f32 0x3F000000#32
abbrev wQuarter : EReal := Ideal.ofBits .f32 0x3E800000#32
abbrev w4 : EReal := Ideal.ofBits .f32 0x40800000#32
abbrev w5 : EReal := Ideal.ofBits .f32 0x40A00000#32
abbrev w1024 : EReal := Ideal.ofBits .f32 0x44800000#32
abbrev wNegInf : EReal := Ideal.ofBits .f32 0xFF800000#32

/-! ## One anchor -/

/-- The label mask as a float, as the kernel makes it: the one-bit compare widened to 32 bits, read signed. -/
def maskK (l v : BitVec 32) : EReal := (((IntOp.cmpi .eq l v).setWidth 32).toInt : ℝ)

/-- The label mask as a float, as the reference makes it: the one-bit compare read unsigned. -/
def maskR (l v : BitVec 32) : EReal := ((IntOp.cmpi .eq l v).toNat : ℝ)

/-- log (1 + exp (-|x - y|)), the part the two softplus terms share; |d| is max d (-d). -/
def ceShared (x y : EReal) : EReal := Ideal.log1p (Ideal.exp (w0 - max (x - y) (-(x - y))))

/-- The cross-entropy against class 1 as a softplus of the logit difference. -/
def cePosK (x y : EReal) : EReal := max (x - y) w0 + ceShared x y

/-- The cross-entropy against class 0 as a softplus of the negated difference. -/
def ceNegK (x y : EReal) : EReal := max (w0 - (x - y)) w0 + ceShared x y

/-- The larger of the two logits, as a maximum folded from minus infinity and then taken against it once more. -/
def rowMax (a : Fin 2 → EReal) : EReal := max wNegInf ((Finset.univ : Finset (Fin 2)).fold max wNegInf a)

/-- The log-softmax of two logits at class k: the shifted logit minus the log of the sum of the shifted exponentials. -/
def logSoftmax (a : Fin 2 → EReal) (k : Fin 2) : EReal :=
  (a k - rowMax a) - Ideal.log (w0 + ∑ j : Fin 2, Ideal.exp (a j - rowMax a))

/-- Smooth-L1 of one coordinate: half the square of the difference where it is below one in size, else its size less a half. -/
def smoothL1 (p t : EReal) : EReal :=
  Scalar.select (Ideal.cmp .olt (max (p - t) (-(p - t))) w1) ((wHalf * (p - t)) * (p - t)) (max (p - t) (-(p - t)) - wHalf)

/-! ## One batch row, over any finite type of anchors -/

variable {ι : Type} [Fintype ι]

/-- The number of anchors labelled v, as the sum of the float masks. -/
def cntK (l : ι → BitVec 32) (v : BitVec 32) : EReal := ∑ n, maskK (l n) v

/-- The number of anchors labelled v, as the 32-bit sum of the widened masks read signed. -/
def cntR (l : ι → BitVec 32) (v : BitVec 32) : EReal :=
  ((((Finset.univ : Finset ι).fold IntOp.addi 0#32 (fun n => (IntOp.cmpi .eq (l n) v).setWidth 32)).toInt : ℝ) : EReal)

/-- The row's classification loss, kernel writing. -/
def cPerK (a0 a1 : ι → EReal) (l : ι → BitVec 32) : EReal :=
  (Scalar.select (Ideal.cmp .ogt (cntK l 1#32) w0)
      (Ideal.div (∑ n, cePosK (a0 n) (a1 n) * maskK (l n) 1#32) (max (cntK l 1#32) w1)) w0
    + Ideal.div (∑ n, ceNegK (a0 n) (a1 n) * maskK (l n) 0#32) (max (cntK l 0#32) w1)) * wHalf

/-- The row's classification loss, reference writing. -/
def cPerR (a : Fin 2 → ι → EReal) (l : ι → BitVec 32) : EReal :=
  (Scalar.select (Ideal.cmp .ogt (cntR l 1#32) w0)
      (Ideal.div (w0 + ∑ n, (-(logSoftmax (fun k => a k n) 1)) * maskR (l n) 1#32) (max (cntR l 1#32) w1)) w0
    + Ideal.div (w0 + ∑ n, (-(logSoftmax (fun k => a k n) 0)) * maskR (l n) 0#32) (max (cntR l 0#32) w1)) * wHalf

/-- The row's regression loss, kernel writing: the four smooth-L1 terms added left to right, times a quarter. -/
def rPerK (p q : Fin 4 → ι → EReal) (l : ι → BitVec 32) : EReal :=
  Scalar.select (Ideal.cmp .ogt (cntK l 1#32) w0)
    (Ideal.div (∑ n, ((((smoothL1 (p 0 n) (q 0 n) + smoothL1 (p 1 n) (q 1 n)) + smoothL1 (p 2 n) (q 2 n))
        + smoothL1 (p 3 n) (q 3 n)) * wQuarter) * maskK (l n) 1#32) (max (cntK l 1#32) w1)) w0

/-- The row's regression loss, reference writing: the four terms summed from zero, divided by four. -/
def rPerR (p q : Fin 4 → ι → EReal) (l : ι → BitVec 32) : EReal :=
  Scalar.select (Ideal.cmp .ogt (cntR l 1#32) w0)
    (Ideal.div (w0 + ∑ n, Ideal.div (w0 + ∑ k : Fin 4, smoothL1 (p k n) (q k n)) w4 * maskR (l n) 1#32) (max (cntR l 1#32) w1)) w0

/-! ## The three results, as functions of the argument arrays -/

/-- The mean over the 1024 rows: the sum from zero, divided by 1024. -/
def rowMean (f : Fin 1024 → EReal) : EReal := Ideal.div (w0 + ∑ b : Fin 1024, f b) w1024

abbrev Logits := (⟨3, ![1024, 3125, 2]⟩ : Shape).Idx → EReal
abbrev Boxes := (⟨3, ![1024, 3125, 4]⟩ : Shape).Idx → EReal
abbrev Labels := (⟨2, ![1024, 3125]⟩ : Shape).Idx → BitVec 32

def cLossK (x : Logits) (l : Labels) : EReal :=
  rowMean fun b => cPerK (fun n : Fin 3125 => x (ix3 b n 0)) (fun n => x (ix3 b n 1)) (fun n => l (ix2 b n))

def rLossK (p q : Boxes) (l : Labels) : EReal :=
  rowMean fun b => rPerK (fun k (n : Fin 3125) => p (ix3 b n k)) (fun k n => q (ix3 b n k)) (fun n => l (ix2 b n))

def cLossR (x : Logits) (l : Labels) : EReal :=
  rowMean fun b => cPerR (fun k (n : Fin 3125) => x (ix3 b n k)) (fun n => l (ix2 b n))

def rLossR (p q : Boxes) (l : Labels) : EReal :=
  rowMean fun b => rPerR (fun k (n : Fin 3125) => p (ix3 b n k)) (fun k n => q (ix3 b n k)) (fun n => l (ix2 b n))

/-- The total: the classification loss plus five times the regression loss. -/
def total (c r : EReal) : EReal := c + w5 * r

end Cert.SiamRpnLoss

end
-- ==== Proof.RowMath.lean ====
/-
  The two writings of a batch row's losses are one function.

  Four facts, each about one anchor or one row, none about an array:
    * the mask: a one-bit word widened to 32 bits and read signed is the bit read unsigned (both are 0 or 1);
    * the count: a sum of at most 2^31 - 1 such words in 32-bit arithmetic does not wrap, so read signed it is
      the number of set bits, which is the sum of the float masks;
    * the cross-entropy: for REAL logits x, y with d = x - y, minus the log-softmax at class 1 is
      d + log (1 + exp (-d)) when d >= 0 and log (exp d + 1) when d < 0, and both are
      max d 0 + log (1 + exp (-|d|)); class 0 likewise with the roles swapped. This is the one place
      finiteness is used: at an infinite logit the shifted difference is not defined as a real;
    * the mean of four: dividing by the word 4.0 is multiplying by 1/4 on EVERY extended real, and the
      word 0.25 is 1/4, so no finiteness is needed for the box coordinates.
-/
import proofs.«429505_j27590869909512_4_alg».proof.Proof.Spec
import Idealize.ShloMosaic.PureOps.Ideal.Laws

noncomputable section

namespace Cert.SiamRpnLoss

open Idealize.ShloMosaic

/-! ## The printed float words this comparison evaluates

Only four of the eight words are ever evaluated: zero, a quarter, four and minus infinity. The others stand
identically on both sides. -/

theorem w0_eq : w0 = 0 := Ideal.ofBits_zero_f32

theorem wQuarter_eq : wQuarter = (((1 / 4 : ℝ)) : EReal) := by
  show Ideal.ofBits .f32 0x3E800000#32 = _
  simp [Ideal.ofBits, Ideal.ieee, -EReal.coe_mul]; norm_num

theorem w4_eq : w4 = ((4 : ℝ) : EReal) := by
  show Ideal.ofBits .f32 0x40800000#32 = _
  simp [Ideal.ofBits, Ideal.ieee, -EReal.coe_mul]; norm_num

theorem wNegInf_eq : wNegInf = ⊥ := by
  show Ideal.ofBits .f32 0xFF800000#32 = _
  simp [Ideal.ofBits, Ideal.ieee]

/-! ## One anchor -/

/-- A one-bit word is 0 or 1. -/
private theorem bit_cases (b : BitVec 1) : b = 0#1 ∨ b = 1#1 := by
  have h := b.isLt
  rcases Nat.lt_or_ge b.toNat 1 with h0 | h1
  · left; apply BitVec.eq_of_toNat_eq; simp; omega
  · right; apply BitVec.eq_of_toNat_eq; simp; omega

/-- Widened to 32 bits, a one-bit word keeps its unsigned value, which is at most 1. -/
private theorem widen_toNat (b : BitVec 1) : (b.setWidth 32).toNat = b.toNat :=
  BitVec.toNat_setWidth_of_le (by omega)

private theorem bit_toNat_le (b : BitVec 1) : b.toNat ≤ 1 := by
  have h := b.isLt; omega

/-- Widened to 32 bits, a one-bit word read signed is the bit read unsigned: the sign bit is clear. -/
private theorem widen_toInt (b : BitVec 1) : (b.setWidth 32).toInt = (b.toNat : ℤ) := by
  rw [BitVec.toInt_eq_toNat_of_lt (by rw [widen_toNat]; have := bit_toNat_le b; omega), widen_toNat]

theorem maskK_eq_maskR (l v : BitVec 32) : maskK l v = maskR l v := by
  unfold maskK maskR
  rw [widen_toInt]
  norm_cast

/-! ## One anchor: the cross-entropies -/

/-- The reals sit in the extended reals in order, so the larger of two reals is carried to the larger. -/
private theorem coe_max (a b : ℝ) : ((max a b : ℝ) : EReal) = max (a : EReal) (b : EReal) :=
  EReal.coe_strictMono.monotone.map_max

/-- The part the two softplus terms share, at real logits: log (1 + exp (-|x - y|)). -/
private theorem ceShared_coe (x y : ℝ) :
    ceShared (x : EReal) (y : EReal) = ((Real.log (1 + Real.exp (-(max (x - y) (-(x - y))))) : ℝ) : EReal) := by
  unfold ceShared Ideal.log1p
  rw [w0_eq, zero_sub, ← EReal.coe_sub, ← EReal.coe_neg, ← coe_max, ← EReal.coe_neg, Ideal.exp_coe, ← EReal.coe_one,
    ← EReal.coe_add, Ideal.log_coe, if_neg (not_le.mpr (by positivity))]

private theorem cePosK_coe (x y : ℝ) :
    cePosK (x : EReal) (y : EReal)
      = ((max (x - y) 0 + Real.log (1 + Real.exp (-(max (x - y) (-(x - y))))) : ℝ) : EReal) := by
  unfold cePosK
  rw [ceShared_coe, w0_eq, ← EReal.coe_sub, ← EReal.coe_zero, ← coe_max, ← EReal.coe_add]

private theorem ceNegK_coe (x y : ℝ) :
    ceNegK (x : EReal) (y : EReal)
      = ((max (-(x - y)) 0 + Real.log (1 + Real.exp (-(max (x - y) (-(x - y))))) : ℝ) : EReal) := by
  unfold ceNegK
  rw [ceShared_coe, w0_eq, ← EReal.coe_sub, zero_sub, ← EReal.coe_neg, ← EReal.coe_zero, ← coe_max, ← EReal.coe_add]

/-- The maximum folded from minus infinity over the two classes, taken once more against minus infinity, is the
    larger logit. -/
private theorem rowMax_eq (a : Fin 2 → EReal) : rowMax a = max (a 0) (a 1) := by
  unfold rowMax
  have hu : (Finset.univ : Finset (Fin 2)) = insert 0 {1} := by decide
  rw [hu, Finset.fold_insert (by decide), Finset.fold_singleton, wNegInf_eq, max_bot_left, max_bot_right]

/-- The log-softmax of two real logits, at either class, as a real. -/
private theorem logSoftmax_coe (a : Fin 2 → EReal) (x y : ℝ) (hx : a 0 = x) (hy : a 1 = y) :
    logSoftmax a 0 = (((x - max x y) - Real.log (Real.exp (x - max x y) + Real.exp (y - max x y)) : ℝ) : EReal)
    ∧ logSoftmax a 1 = (((y - max x y) - Real.log (Real.exp (x - max x y) + Real.exp (y - max x y)) : ℝ) : EReal) := by
  have hs : Ideal.log (w0 + ∑ j : Fin 2, Ideal.exp (a j - rowMax a))
      = ((Real.log (Real.exp (x - max x y) + Real.exp (y - max x y)) : ℝ) : EReal) := by
    rw [rowMax_eq, Fin.sum_univ_two, hx, hy, w0_eq, zero_add, ← coe_max, ← EReal.coe_sub, ← EReal.coe_sub,
      Ideal.exp_coe, Ideal.exp_coe, ← EReal.coe_add, Ideal.log_coe, if_neg (not_le.mpr (by positivity))]
  constructor
  · unfold logSoftmax
    rw [hs, rowMax_eq, hx, hy, ← coe_max, ← EReal.coe_sub, ← EReal.coe_sub]
  · unfold logSoftmax
    rw [hs, rowMax_eq, hx, hy, ← coe_max, ← EReal.coe_sub, ← EReal.coe_sub]

/-- Class 1 over the reals: softplus of d = x - y is minus the log-softmax at class 1. -/
private theorem real_cePos (x y : ℝ) :
    max (x - y) 0 + Real.log (1 + Real.exp (-(max (x - y) (-(x - y)))))
      = -((y - max x y) - Real.log (Real.exp (x - max x y) + Real.exp (y - max x y))) := by
  rcases le_total y x with h | h
  · rw [max_eq_left h, max_eq_left (by linarith : (0 : ℝ) ≤ x - y), max_eq_left (by linarith : -(x - y) ≤ x - y),
      sub_self, Real.exp_zero, neg_sub]
    ring
  · rw [max_eq_right h, max_eq_right (by linarith : x - y ≤ 0), max_eq_right (by linarith : x - y ≤ -(x - y)),
      sub_self, Real.exp_zero, neg_neg, add_comm (1 : ℝ)]
    ring

/-- Class 0 over the reals: softplus of -d is minus the log-softmax at class 0. -/
private theorem real_ceNeg (x y : ℝ) :
    max (-(x - y)) 0 + Real.log (1 + Real.exp (-(max (x - y) (-(x - y)))))
      = -((x - max x y) - Real.log (Real.exp (x - max x y) + Real.exp (y - max x y))) := by
  rcases le_total y x with h | h
  · rw [max_eq_left h, max_eq_right (by linarith : -(x - y) ≤ 0), max_eq_left (by linarith : -(x - y) ≤ x - y),
      sub_self, Real.exp_zero, neg_sub]
    ring
  · rw [max_eq_right h, max_eq_left (by linarith : (0 : ℝ) ≤ -(x - y)), max_eq_right (by linarith : x - y ≤ -(x - y)),
      sub_self, Real.exp_zero, neg_neg, add_comm (1 : ℝ)]
    ring

/-- For real logits the softplus writing of the class-1 cross-entropy is minus the log-softmax at class 1. -/
theorem cePosK_eq (a : Fin 2 → EReal) (h : ∀ k, ∃ r : ℝ, a k = (r : EReal)) :
    cePosK (a 0) (a 1) = -(logSoftmax a 1) := by
  obtain ⟨x, hx⟩ := h 0
  obtain ⟨y, hy⟩ := h 1
  rw [(logSoftmax_coe a x y hx hy).2, hx, hy, cePosK_coe, ← EReal.coe_neg, real_cePos]

/-- For real logits the softplus writing of the class-0 cross-entropy is minus the log-softmax at class 0. -/
theorem ceNegK_eq (a : Fin 2 → EReal) (h : ∀ k, ∃ r : ℝ, a k = (r : EReal)) :
    ceNegK (a 0) (a 1) = -(logSoftmax a 0) := by
  obtain ⟨x, hx⟩ := h 0
  obtain ⟨y, hy⟩ := h 1
  rw [(logSoftmax_coe a x y hx hy).1, hx, hy, ceNegK_coe, ← EReal.coe_neg, real_ceNeg]

/-- The four terms added left to right and multiplied by the word 0.25 are their sum from zero divided by the word 4.0. -/
theorem quarter_mean (s : Fin 4 → EReal) :
    (((s 0 + s 1) + s 2) + s 3) * wQuarter = Ideal.div (w0 + ∑ k : Fin 4, s k) w4 := by
  rw [Fin.sum_univ_four, w0_eq, zero_add, w4_eq, Ideal.div_coe (by norm_num : (4 : ℝ) ≠ 0), wQuarter_eq]

/-! ## One batch row -/

variable {ι : Type} [Fintype ι]

/-- A 32-bit sum read unsigned is the sum of the unsigned summands modulo 2^32. -/
private theorem fold_addi_toNat (f : ι → BitVec 32) (S : Finset ι) :
    (S.fold IntOp.addi 0#32 f).toNat = (∑ n ∈ S, (f n).toNat) % 2 ^ 32 := by
  classical
  induction S using Finset.induction_on with
  | empty => simp
  | insert a S ha ih =>
    rw [Finset.fold_insert ha, Finset.sum_insert ha]
    show ((f a) + (S.fold IntOp.addi 0#32 f)).toNat = _
    rw [BitVec.toNat_add, ih, Nat.add_mod_mod]

/-- Summands that are each at most 1 sum to at most the number of summands. -/
private theorem sum_bits_le (g : ι → ℕ) (hg : ∀ n, g n ≤ 1) (S : Finset ι) : ∑ n ∈ S, g n ≤ Fintype.card ι := by
  calc ∑ n ∈ S, g n ≤ ∑ _n ∈ S, 1 := Finset.sum_le_sum fun n _ => hg n
    _ = S.card := by simp
    _ ≤ Fintype.card ι := Finset.card_le_univ S

/-- The real numbers sit additively in the extended reals: a finite sum of coerced reals is the coerced sum. -/
private theorem coe_sum (g : ι → ℝ) (S : Finset ι) : ∑ n ∈ S, ((g n : ℝ) : EReal) = ((∑ n ∈ S, g n : ℝ) : EReal) := by
  classical
  induction S using Finset.induction_on with
  | empty => simp
  | insert a S ha ih => rw [Finset.sum_insert ha, Finset.sum_insert ha, ih, EReal.coe_add]

/-- With fewer than 2^31 anchors the 32-bit sum of the masks does not wrap: the two counts agree. -/
theorem cntK_eq_cntR (l : ι → BitVec 32) (v : BitVec 32) (hcard : Fintype.card ι < 2 ^ 31) :
    cntK l v = cntR l v := by
  have hle : ∑ n, ((IntOp.cmpi .eq (l n) v).setWidth 32).toNat ≤ Fintype.card ι :=
    sum_bits_le _ (fun n => by rw [widen_toNat]; exact bit_toNat_le _) Finset.univ
  have hnat : ((Finset.univ : Finset ι).fold IntOp.addi 0#32 (fun n => (IntOp.cmpi .eq (l n) v).setWidth 32)).toNat
      = ∑ n, ((IntOp.cmpi .eq (l n) v).setWidth 32).toNat := by
    rw [fold_addi_toNat, Nat.mod_eq_of_lt (by omega)]
  unfold cntK cntR
  rw [BitVec.toInt_eq_toNat_of_lt (by rw [hnat]; omega), hnat]
  have hm : ∀ n, maskK (l n) v = (((((IntOp.cmpi .eq (l n) v).setWidth 32).toNat : ℕ) : ℝ) : EReal) := by
    intro n
    unfold maskK
    rw [BitVec.toInt_eq_toNat_of_lt (by rw [widen_toNat]; have := bit_toNat_le (IntOp.cmpi .eq (l n) v); omega)]
    norm_cast
  rw [Finset.sum_congr rfl (fun n _ => hm n), coe_sum]
  norm_cast

theorem cPerK_eq_cPerR (a : Fin 2 → ι → EReal) (l : ι → BitVec 32)
    (hfin : ∀ k n, ∃ r : ℝ, a k n = (r : EReal)) (hcard : Fintype.card ι < 2 ^ 31) :
    cPerK (a 0) (a 1) l = cPerR a l := by
  have hpos : ∑ n, cePosK (a 0 n) (a 1 n) * maskK (l n) 1#32
      = w0 + ∑ n, (-(logSoftmax (fun k => a k n) 1)) * maskR (l n) 1#32 := by
    rw [w0_eq, zero_add]
    refine Finset.sum_congr rfl fun n _ => ?_
    rw [maskK_eq_maskR, ← cePosK_eq (fun k => a k n) (fun k => hfin k n)]
  have hneg : ∑ n, ceNegK (a 0 n) (a 1 n) * maskK (l n) 0#32
      = w0 + ∑ n, (-(logSoftmax (fun k => a k n) 0)) * maskR (l n) 0#32 := by
    rw [w0_eq, zero_add]
    refine Finset.sum_congr rfl fun n _ => ?_
    rw [maskK_eq_maskR, ← ceNegK_eq (fun k => a k n) (fun k => hfin k n)]
  unfold cPerK cPerR
  rw [cntK_eq_cntR l 1#32 hcard, cntK_eq_cntR l 0#32 hcard, hpos, hneg]

theorem rPerK_eq_rPerR (p q : Fin 4 → ι → EReal) (l : ι → BitVec 32) (hcard : Fintype.card ι < 2 ^ 31) :
    rPerK p q l = rPerR p q l := by
  have hsum : ∑ n, ((((smoothL1 (p 0 n) (q 0 n) + smoothL1 (p 1 n) (q 1 n)) + smoothL1 (p 2 n) (q 2 n))
        + smoothL1 (p 3 n) (q 3 n)) * wQuarter) * maskK (l n) 1#32
      = w0 + ∑ n, Ideal.div (w0 + ∑ k : Fin 4, smoothL1 (p k n) (q k n)) w4 * maskR (l n) 1#32 := by
    rw [w0_eq, zero_add]
    refine Finset.sum_congr rfl fun n _ => ?_
    rw [maskK_eq_maskR, quarter_mean (fun k => smoothL1 (p k n) (q k n)), w0_eq]
  unfold rPerK rPerR
  rw [cntK_eq_cntR l 1#32 hcard, hsum]

/-! ## The three results -/

private theorem card_anchors : Fintype.card (Fin 3125) < 2 ^ 31 := by
  rw [Fintype.card_fin]; norm_num

theorem cLossK_eq_cLossR (x : Logits) (l : Labels) (hfin : ∀ i, ∃ r : ℝ, x i = (r : EReal)) :
    cLossK x l = cLossR x l := by
  have hrow : (fun b : Fin 1024 => cPerK (fun n : Fin 3125 => x (ValueIdx.ix3 b n 0)) (fun n => x (ValueIdx.ix3 b n 1))
        (fun n => l (ValueIdx.ix2 b n)))
      = fun b => cPerR (fun k (n : Fin 3125) => x (ValueIdx.ix3 b n k)) (fun n => l (ValueIdx.ix2 b n)) :=
    funext fun b => cPerK_eq_cPerR (fun k (n : Fin 3125) => x (ValueIdx.ix3 b n k)) (fun n => l (ValueIdx.ix2 b n))
      (fun _ _ => hfin _) card_anchors
  unfold cLossK cLossR
  rw [hrow]

theorem rLossK_eq_rLossR (p q : Boxes) (l : Labels) : rLossK p q l = rLossR p q l := by
  have hrow : (fun b : Fin 1024 => rPerK (fun k (n : Fin 3125) => p (ValueIdx.ix3 b n k)) (fun k n => q (ValueIdx.ix3 b n k))
        (fun n => l (ValueIdx.ix2 b n)))
      = fun b => rPerR (fun k (n : Fin 3125) => p (ValueIdx.ix3 b n k)) (fun k n => q (ValueIdx.ix3 b n k))
        (fun n => l (ValueIdx.ix2 b n)) :=
    funext fun b => rPerK_eq_rPerR _ _ _ card_anchors
  unfold rLossK rLossR
  rw [hrow]

end Cert.SiamRpnLoss

end
-- ==== Proof.Finite.lean ====
/-
  Under the precondition every class logit is a real number.

  The precondition is the conjunction of three facts, one per float argument: every entry's size is below plus
  infinity. On the extended reals the size of x is max x (-x), so the first fact rules out both infinities for every
  entry of the logits, which leaves a real. Only the logits' fact is used: the losses' comparison needs finiteness
  nowhere else.
-/
import proofs.«429505_j27590869909512_4_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteLogits

open Idealize.ShloMosaic Cert.Pre_finite_inputs

/-- The word 0x7F800000 is plus infinity. -/
theorem wPosInf_eq : Ideal.ofBits .f32 0x7F800000#32 = ⊤ := by
  simp [Ideal.ofBits, Ideal.ieee]

/-- An extended real whose size max z (-z) is below plus infinity is neither infinity, so it is a real. -/
theorem real_of_size_lt_top (z : EReal) (hz : max z (-z) < ⊤) : ∃ r : ℝ, z = (r : EReal) := by
  induction z using EReal.rec with
  | bot => exact absurd hz (by simp)
  | coe r => exact ⟨r, rfl⟩
  | top => exact absurd hz (by simp)

/-- A one-bit word made from a truth value is 1 exactly when the value is true. -/
private theorem ofBool_eq_one {b : Bool} : BitVec.ofBool b = 1#1 ↔ b = true := by cases b <;> decide

/-- The result of a reduction over every axis has one index. -/
instance : Subsingleton S_.Idx := ⟨fun a b => funext fun d => d.elim0⟩

/-- If the printed precondition evaluates to all ones on (x0, x1, x2, x3), every entry of x0 is a real. -/
theorem logits_real [hP : Cert.Pre_finite_inputs.Facts]
    (x0 : FVec Ideal S1024x3125x2 .f32) (x1 x2 : FVec Ideal S1024x3125x4 .f32) (x3 : IVec S1024x3125 32)
    (h : Cert.Pre_finite_inputs.fn (F := Ideal) x0 x1 x2 x3 = fun _ => 1#1) (i : S1024x3125x2.Idx) :
    ∃ r : ℝ, x0 i = (r : EReal) := by
  -- the precondition's one result, at its one index
  have h0 := congrFun h ValueIdx.ix0
  dsimp only [Cert.Pre_finite_inputs.fn] at h0
  -- the first of the three conjuncts is the logits' fact
  obtain ⟨h1, -⟩ := IntOp.andi_eq_one.1 h0
  obtain ⟨h2, -⟩ := IntOp.andi_eq_one.1 h1
  -- a conjunction over all entries that is true is true at entry i
  have h3 := Host.reduce_andi_all _ _ _ _ _ h2 i
  -- at entry i the compare reads: the size of x0 i is below the word 0x7F800000
  have h4 : Ideal.cmp .olt (max (x0 i) (-(x0 i))) (Ideal.ofBits .f32 0x7F800000#32) = 1#1 := h3
  rw [wPosInf_eq] at h4
  have h5 : decide (max (x0 i) (-(x0 i)) < (⊤ : EReal)) = true := ofBool_eq_one.1 h4
  exact real_of_size_lt_top (x0 i) (of_decide_eq_true h5)

end Cert.FiniteLogits

end
-- ==== Proof.Payload.lean ====
/-
  What the kernel's body leaves in its two output blocks, row by row.

  One grid point holds 64 batch rows. The body loads the eleven input blocks whole (two logit planes, four predicted
  and four target coordinate planes, the labels), does every reduction along the anchors inside the block, and stores
  one (64, 1) column per output. So entry (r, 0) of the first output block is the classification loss of row r of the
  block — a function of row r of the two logit blocks and of the label block only — and entry (r, 0) of the second is
  the regression loss of that row, a function of row r of the eight coordinate blocks and of the label block.
  Each lane sum over the anchors reads as a sum over the anchor coordinate; every other operation is pointwise.
-/
import proofs.«429505_j27590869909512_4_alg».proof.Proof.Gen.KernelIdeal.Frame
import proofs.«429505_j27590869909512_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.SiamRpnLoss Idealize.ShloMosaic Idealize.ShloMosaic.ValueIdx

/-- The block offset (0, 0) is the zero offset. -/
private theorem hz2 : (![0, 0] : Fin 2 → Nat) = fun _ => 0 :=
  funext fun a => match a with | ⟨0, _⟩ => rfl | ⟨1, _⟩ => rfl

/-- An `[a]` vector cast to the column `[a, 1]` reads, at `(i, u)`, the operand at `i`, whatever the unit coordinate `u`:
    the two indices have the same row-major position, `i = i * 1 + 0`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum kept as a column: the sum along the anchors of a 64 × 3125 block, reshaped from `[64]` to `[64, 1]`, reads at
    `(r, 0)` the sum over the anchor coordinate `n` of the block at `(r, n)`. -/
private theorem laneSum_row (v : FVec Ideal S64x3125 .f32) (r : Fin 64) :
    shapeCast S64x1 (multiReduction (F := Ideal) .add [1] S64 v 0x00000000#32 Facts₀.reduces_S64x3125_S64 (.inl rfl) rfl)
        Facts₀.shapeCasts_S64_S64x1 (ix2 r (0 : Fin 1))
      = ∑ n : Fin 3125, v (ix2 r n) := by
  refine (shapeCast_a_a1_apply _ Facts₀.shapeCasts_S64_S64x1 r 0).trans ?_
  refine (Ideal.multiReduction_add_single v 0x00000000#32 Facts₀.reduces_S64x3125_S64 (.inl rfl) rfl (ix1 r)).trans ?_
  refine Finset.sum_congr rfl fun n _ => congrArg v ?_
  funext a
  match a with
  | ⟨0, _⟩ => exact Fin.ext rfl
  | ⟨1, _⟩ => exact Fin.ext rfl

/-! ## The pointwise payloads at an index -/

/-- The logit difference: the two identity reshapes drop out. -/
private theorem pay1_eq (a b : Vec Ideal S64x3125 .f32) : k0_pay1 (F := Ideal) a b = subf a b := by
  unfold k0_pay1
  simp only [shapeCast_self]

/-- log (1 + exp (-|d|)) of the logit difference d, at an index. -/
private theorem pay2_apply (a b : Vec Ideal S64x3125 .f32) (i : S64x3125.Idx) :
    k0_pay2 (F := Ideal) a b i = ceShared (a i) (b i) := by
  unfold k0_pay2
  rw [pay1_eq]
  rfl

/-- The positive mask as a float, at an index. -/
private theorem pay3_apply (l : Vec Ideal S64x3125 .i32) (i : S64x3125.Idx) : k0_pay3 (F := Ideal) l i = maskK (l i) 1#32 := rfl

/-- The negative mask as a float, at an index. -/
private theorem pay4_apply (l : Vec Ideal S64x3125 .i32) (i : S64x3125.Idx) : k0_pay4 (F := Ideal) l i = maskK (l i) 0#32 := rfl

/-! ## The lane sums of a row -/

/-- The count of positive anchors of row r. -/
private theorem pay5_row (l : Vec Ideal S64x3125 .i32) (r : Fin 64) :
    k0_pay5 (F := Ideal) l (ix2 r (0 : Fin 1)) = cntK (fun n : Fin 3125 => l (ix2 r n)) 1#32 := by
  unfold k0_pay5
  exact (laneSum_row _ r).trans (Finset.sum_congr rfl fun n _ => pay3_apply l (ix2 r n))

/-- The count of negative anchors of row r. -/
private theorem pay6_row (l : Vec Ideal S64x3125 .i32) (r : Fin 64) :
    k0_pay6 (F := Ideal) l (ix2 r (0 : Fin 1)) = cntK (fun n : Fin 3125 => l (ix2 r n)) 0#32 := by
  unfold k0_pay6
  exact (laneSum_row _ r).trans (Finset.sum_congr rfl fun n _ => pay4_apply l (ix2 r n))

/-- The sum over row r's anchors of the cross-entropy against class 1 where the anchor is positive. -/
private theorem pay7_row (a b : Vec Ideal S64x3125 .f32) (l : Vec Ideal S64x3125 .i32) (r : Fin 64) :
    k0_pay7 (F := Ideal) a b l (ix2 r (0 : Fin 1))
      = ∑ n : Fin 3125, cePosK (a (ix2 r n)) (b (ix2 r n)) * maskK (l (ix2 r n)) 1#32 := by
  unfold k0_pay7
  refine (laneSum_row _ r).trans (Finset.sum_congr rfl fun n _ => ?_)
  show (max (k0_pay1 (F := Ideal) a b (ix2 r n)) w0 + k0_pay2 (F := Ideal) a b (ix2 r n)) * k0_pay3 (F := Ideal) l (ix2 r n) = _
  rw [pay1_eq, pay2_apply, pay3_apply]
  rfl

/-- The sum over row r's anchors of the cross-entropy against class 0 where the anchor is negative. -/
private theorem pay8_row (a b : Vec Ideal S64x3125 .f32) (l : Vec Ideal S64x3125 .i32) (r : Fin 64) :
    k0_pay8 (F := Ideal) a b l (ix2 r (0 : Fin 1))
      = ∑ n : Fin 3125, ceNegK (a (ix2 r n)) (b (ix2 r n)) * maskK (l (ix2 r n)) 0#32 := by
  unfold k0_pay8
  refine (laneSum_row _ r).trans (Finset.sum_congr rfl fun n _ => ?_)
  show (max (w0 - k0_pay1 (F := Ideal) a b (ix2 r n)) w0 + k0_pay2 (F := Ideal) a b (ix2 r n)) * k0_pay4 (F := Ideal) l (ix2 r n) = _
  rw [pay1_eq, pay2_apply, pay4_apply]
  rfl

/-- Whether row r has a positive anchor. -/
private theorem pay9_row (l : Vec Ideal S64x3125 .i32) (r : Fin 64) :
    k0_pay9 (F := Ideal) l (ix2 r (0 : Fin 1)) = Ideal.cmp .ogt (cntK (fun n : Fin 3125 => l (ix2 r n)) 1#32) w0 := by
  unfold k0_pay9
  show Ideal.cmp .ogt (k0_pay5 (F := Ideal) l (ix2 r (0 : Fin 1))) w0 = _
  rw [pay5_row]

/-- The positive count of row r, at least one. -/
private theorem pay10_row (l : Vec Ideal S64x3125 .i32) (r : Fin 64) :
    k0_pay10 (F := Ideal) l (ix2 r (0 : Fin 1)) = max (cntK (fun n : Fin 3125 => l (ix2 r n)) 1#32) w1 := by
  unfold k0_pay10
  show max (k0_pay5 (F := Ideal) l (ix2 r (0 : Fin 1))) w1 = _
  rw [pay5_row]

/-! ## The regression payloads -/

/-- The identity reshape of the predicted coordinate 2 drops out. -/
private theorem pay12_eq (v : Vec Ideal S64x3125 .f32) : k0_pay12 (F := Ideal) v = v := by
  unfold k0_pay12
  simp only [shapeCast_self]

/-- The identity reshape of the predicted coordinate 3 drops out. -/
private theorem pay13_eq (v : Vec Ideal S64x3125 .f32) : k0_pay13 (F := Ideal) v = v := by
  unfold k0_pay13
  simp only [shapeCast_self]

/-- The identity reshape of the target coordinate 2 drops out. -/
private theorem pay14_eq (v : Vec Ideal S64x3125 .f32) : k0_pay14 (F := Ideal) v = v := by
  unfold k0_pay14
  simp only [shapeCast_self]

/-- The identity reshape of the target coordinate 3 drops out. -/
private theorem pay15_eq (v : Vec Ideal S64x3125 .f32) : k0_pay15 (F := Ideal) v = v := by
  unfold k0_pay15
  simp only [shapeCast_self]

/-- Smooth-L1 of coordinate 0, at an index. -/
private theorem pay16_apply (p t : Vec Ideal S64x3125 .f32) (i : S64x3125.Idx) :
    k0_pay16 (F := Ideal) p t i = smoothL1 (p i) (t i) := by
  unfold k0_pay16
  simp only [shapeCast_self]
  rfl

/-- The difference of coordinate 1. -/
private theorem pay17_eq (p t : Vec Ideal S64x3125 .f32) : k0_pay17 (F := Ideal) p t = subf p t := by
  unfold k0_pay17
  simp only [shapeCast_self]

/-- The size of the difference of coordinate 1, at an index. -/
private theorem pay18_apply (p t : Vec Ideal S64x3125 .f32) (i : S64x3125.Idx) :
    k0_pay18 (F := Ideal) p t i = max (p i - t i) (-(p i - t i)) := by
  unfold k0_pay18
  rw [pay17_eq]
  rfl

/-- The rest of the regression loss at (r, 0), over any operands: the mask m, the count column c, the planes of
    coordinates 2 and 3, the finished smooth-L1 of coordinate 0 (s0), the difference of coordinate 1 and its size (d1, a1),
    and the word the size is compared with. The one lane sum reads as the sum over the anchor coordinate. -/
private theorem pay19_row (m : FVec Ideal S64x3125 .f32) (c : FVec Ideal S64x1 .f32) (p2 p3 t2 t3 s0 d1 a1 : FVec Ideal S64x3125 .f32)
    (one : Ideal .f32) (r : Fin 64) :
    k0_pay19 (F := Ideal) m c p2 p3 t2 t3 s0 d1 a1 one (ix2 r (0 : Fin 1))
      = Scalar.select (Ideal.cmp .ogt (c (ix2 r (0 : Fin 1))) w0)
          (Ideal.div (∑ n : Fin 3125,
              ((((s0 (ix2 r n)
                  + Scalar.select (Ideal.cmp .olt (a1 (ix2 r n)) one) ((wHalf * d1 (ix2 r n)) * d1 (ix2 r n)) (a1 (ix2 r n) - wHalf))
                  + smoothL1 (p2 (ix2 r n)) (t2 (ix2 r n)))
                  + smoothL1 (p3 (ix2 r n)) (t3 (ix2 r n))) * wQuarter) * m (ix2 r n))
            (max (c (ix2 r (0 : Fin 1))) w1)) w0 := by
  unfold k0_pay19
  show Scalar.select (Ideal.cmp .ogt (c (ix2 r (0 : Fin 1))) w0)
      (Ideal.div (shapeCast S64x1 (multiReduction (F := Ideal) .add [1] S64 _ 0x00000000#32 Facts₀.reduces_S64x3125_S64 (.inl rfl) rfl)
          Facts₀.shapeCasts_S64_S64x1 (ix2 r (0 : Fin 1))) (max (c (ix2 r (0 : Fin 1))) w1)) w0 = _
  rw [laneSum_row]
  rfl

/-! ## The two output blocks, row by row -/

/-- Entry (r, 0) of the classification output block is the kernel writing of row r's classification loss. -/
theorem out0_11_row (x0 x1 x2 x3 x4 x5 x6 x7 x8 x9 : Vec Ideal S64x3125 .f32) (x10 : Vec Ideal S64x3125 .i32) (r : Fin 64) :
    out0_11 (F := Ideal) x0 x1 x2 x3 x4 x5 x6 x7 x8 x9 x10 (ix2 r (0 : Fin 1))
      = cPerK (fun n : Fin 3125 => x0 (ix2 r n)) (fun n : Fin 3125 => x1 (ix2 r n)) (fun n : Fin 3125 => x10 (ix2 r n)) := by
  unfold out0_11
  rw [View.canon_unit_zero hz2]
  simp only [View.ld_unit_zero (S := S64x3125) hz2]
  unfold k0_pay11
  show (Scalar.select (k0_pay9 (F := Ideal) x10 (ix2 r (0 : Fin 1)))
          (Ideal.div (k0_pay7 (F := Ideal) x0 x1 x10 (ix2 r (0 : Fin 1))) (k0_pay10 (F := Ideal) x10 (ix2 r (0 : Fin 1)))) w0
        + Ideal.div (k0_pay8 (F := Ideal) x0 x1 x10 (ix2 r (0 : Fin 1))) (max (k0_pay6 (F := Ideal) x10 (ix2 r (0 : Fin 1))) w1)) * wHalf = _
  rw [pay9_row, pay7_row, pay10_row, pay8_row, pay6_row]
  rfl

/-- Entry (r, 0) of the regression output block is the kernel writing of row r's regression loss; blocks 2 to 5 are the
    predicted coordinates 0 to 3 and blocks 6 to 9 the targets. -/
theorem out0_12_row (x0 x1 x2 x3 x4 x5 x6 x7 x8 x9 : Vec Ideal S64x3125 .f32) (x10 : Vec Ideal S64x3125 .i32) (r : Fin 64) :
    out0_12 (F := Ideal) x0 x1 x2 x3 x4 x5 x6 x7 x8 x9 x10 (ix2 r (0 : Fin 1))
      = rPerK (fun (k : Fin 4) (n : Fin 3125) => ![x2, x3, x4, x5] k (ix2 r n))
          (fun (k : Fin 4) (n : Fin 3125) => ![x6, x7, x8, x9] k (ix2 r n)) (fun n : Fin 3125 => x10 (ix2 r n)) := by
  unfold out0_12
  rw [View.canon_unit_zero hz2]
  simp only [View.ld_unit_zero (S := S64x3125) hz2]
  rw [pay19_row, pay5_row, pay12_eq, pay13_eq, pay14_eq, pay15_eq, pay17_eq]
  simp only [pay16_apply, pay18_apply, pay3_apply]
  rfl

end Cert.KernelIdeal.Payload

end
-- ==== Proof.KArrays.lean ====
/-
  The two arrays the kernel's region leaves, each as one function of the argument arrays.

  Before the region the host cuts the three float arguments into ten planes: plane k of a [1024, 3125, K] array is
  the [1024, 3125] array whose entry (b, n) is the argument's entry (b, n, k). The region runs sixteen points; point t
  stages rows 64 t to 64 t + 63 of every plane and of the labels, whole in the anchor axis, and writes back rows
  64 t to 64 t + 63 of the two [1024, 1] outputs. Row r of point t's block is therefore batch row 64 t + r, and since
  the body's entry (r, 0) depends on row r of its blocks only, entry (b, 0) of the first output is the classification
  loss of batch row b and entry (b, 0) of the second its regression loss. The sixteen blocks tile the 1024 rows, so
  the two arrays end holding exactly these functions.
-/
import proofs.«429505_j27590869909512_4_alg».proof.Proof.Payload
import Idealize.ShloMosaic.Lib.StableHlo.Run
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.SiamRpnLoss
open Idealize.ShloMosaic Idealize.ShloMosaic.TcCoe Idealize.ShloMosaic.ValueIdx Idealize.SL.Sem
open Idealize.ShloMosaic.Pipeline (Dat)

/-! ## A channel plane read at an index -/

/-- Plane `off` of a [1024, 3125, 2] array, reshaped to [1024, 3125], at (b, n) is the array at (b, n, off). -/
theorem plane2_apply {α : Type} (x : (⟨3, ![1024, 3125, 2]⟩ : Shape).Idx → α) (off : Nat) (k : Fin 2) (hk : k.val = off)
    (hs : (⟨3, ![1024, 3125, 2]⟩ : Shape).Slices ![0, 0, off] ⟨3, ![1024, 3125, 1]⟩)
    (hc : (⟨3, ![1024, 3125, 1]⟩ : Shape).ShapeCasts ⟨2, ![1024, 3125]⟩) (b : Fin 1024) (n : Fin 3125) :
    shapeCast ⟨2, ![1024, 3125]⟩ (extractStridedSlice ⟨3, ![1024, 3125, 1]⟩ ![0, 0, off] x hs) hc (ix2 b n) = x (ix3 b n k) := by
  rw [shapeCast_apply _ hc (ix2 b n) (ix3 b n (0 : Fin 1)) (by
    rewrite [Shape.rowMajor_val_three, Shape.rowMajor_val_two]
    show (b.val * 3125 + n.val) * 1 + 0 = b.val * 3125 + n.val; omega)]
  exact extractStridedSlice_apply ![0, 0, off] x hs (ix3 b n (0 : Fin 1)) (ix3 b n k) (fun a => match a with
    | ⟨0, _⟩ => by show b.val = 0 + b.val; omega
    | ⟨1, _⟩ => by show n.val = 0 + n.val; omega
    | ⟨2, _⟩ => by show k.val = off + 0; omega)

/-- The same for a [1024, 3125, 4] array. -/
theorem plane4_apply {α : Type} (x : (⟨3, ![1024, 3125, 4]⟩ : Shape).Idx → α) (off : Nat) (k : Fin 4) (hk : k.val = off)
    (hs : (⟨3, ![1024, 3125, 4]⟩ : Shape).Slices ![0, 0, off] ⟨3, ![1024, 3125, 1]⟩)
    (hc : (⟨3, ![1024, 3125, 1]⟩ : Shape).ShapeCasts ⟨2, ![1024, 3125]⟩) (b : Fin 1024) (n : Fin 3125) :
    shapeCast ⟨2, ![1024, 3125]⟩ (extractStridedSlice ⟨3, ![1024, 3125, 1]⟩ ![0, 0, off] x hs) hc (ix2 b n) = x (ix3 b n k) := by
  rw [shapeCast_apply _ hc (ix2 b n) (ix3 b n (0 : Fin 1)) (by
    rewrite [Shape.rowMajor_val_three, Shape.rowMajor_val_two]
    show (b.val * 3125 + n.val) * 1 + 0 = b.val * 3125 + n.val; omega)]
  exact extractStridedSlice_apply ![0, 0, off] x hs (ix3 b n (0 : Fin 1)) (ix3 b n k) (fun a => match a with
    | ⟨0, _⟩ => by show b.val = 0 + b.val; omega
    | ⟨1, _⟩ => by show n.val = 0 + n.val; omega
    | ⟨2, _⟩ => by show k.val = off + 0; omega)

variable (m : (ℓ : Loc nD τ sig) → Buf (Elt Ideal) ℓ)

/-! ## The ten planes as the region finds them -/

theorem V_w0 (c : Dev nD) (b : Fin 1024) (n : Fin 3125) :
    (V m c main_v1 : S1024x3125.Idx → EReal) (ix2 b n) = (m ((c : Thread nD τ).loc main_arg0) : S1024x3125x2.Idx → EReal) (ix3 b n 0) := by
  have e : (V m c main_v1 : S1024x3125.Idx → EReal)
      = shapeCast S1024x3125 (extractStridedSlice S1024x3125x1 ![0, 0, 0] (m ((c : Thread nD τ).loc main_arg0) : S1024x3125x2.Idx → EReal) slices_S1024x3125x2_S1024x3125x1_0_0_0) shapeCasts_S1024x3125x1_S1024x3125 := by
    show StableHlo.after hostOps0 (fun b => m (c, b)) (Proc.devRef .tc main_v1) = _
    after_results; rfl
  rw [e]
  exact plane2_apply _ 0 (0 : Fin 2) rfl _ _ b n

theorem V_w1 (c : Dev nD) (b : Fin 1024) (n : Fin 3125) :
    (V m c main_v3 : S1024x3125.Idx → EReal) (ix2 b n) = (m ((c : Thread nD τ).loc main_arg0) : S1024x3125x2.Idx → EReal) (ix3 b n 1) := by
  have e : (V m c main_v3 : S1024x3125.Idx → EReal)
      = shapeCast S1024x3125 (extractStridedSlice S1024x3125x1 ![0, 0, 1] (m ((c : Thread nD τ).loc main_arg0) : S1024x3125x2.Idx → EReal) slices_S1024x3125x2_S1024x3125x1_0_0_1) shapeCasts_S1024x3125x1_S1024x3125 := by
    show StableHlo.after hostOps0 (fun b => m (c, b)) (Proc.devRef .tc main_v3) = _
    after_results; rfl
  rw [e]
  exact plane2_apply _ 1 (1 : Fin 2) rfl _ _ b n

theorem V_w2 (c : Dev nD) (b : Fin 1024) (n : Fin 3125) :
    (V m c main_v5 : S1024x3125.Idx → EReal) (ix2 b n) = (m ((c : Thread nD τ).loc main_arg1) : S1024x3125x4.Idx → EReal) (ix3 b n 0) := by
  have e : (V m c main_v5 : S1024x3125.Idx → EReal)
      = shapeCast S1024x3125 (extractStridedSlice S1024x3125x1 ![0, 0, 0] (m ((c : Thread nD τ).loc main_arg1) : S1024x3125x4.Idx → EReal) slices_S1024x3125x4_S1024x3125x1_0_0_0) shapeCasts_S1024x3125x1_S1024x3125 := by
    show StableHlo.after hostOps0 (fun b => m (c, b)) (Proc.devRef .tc main_v5) = _
    after_results; rfl
  rw [e]
  exact plane4_apply _ 0 (0 : Fin 4) rfl _ _ b n

theorem V_w3 (c : Dev nD) (b : Fin 1024) (n : Fin 3125) :
    (V m c main_v7 : S1024x3125.Idx → EReal) (ix2 b n) = (m ((c : Thread nD τ).loc main_arg1) : S1024x3125x4.Idx → EReal) (ix3 b n 1) := by
  have e : (V m c main_v7 : S1024x3125.Idx → EReal)
      = shapeCast S1024x3125 (extractStridedSlice S1024x3125x1 ![0, 0, 1] (m ((c : Thread nD τ).loc main_arg1) : S1024x3125x4.Idx → EReal) slices_S1024x3125x4_S1024x3125x1_0_0_1) shapeCasts_S1024x3125x1_S1024x3125 := by
    show StableHlo.after hostOps0 (fun b => m (c, b)) (Proc.devRef .tc main_v7) = _
    after_results; rfl
  rw [e]
  exact plane4_apply _ 1 (1 : Fin 4) rfl _ _ b n

theorem V_w4 (c : Dev nD) (b : Fin 1024) (n : Fin 3125) :
    (V m c main_v9 : S1024x3125.Idx → EReal) (ix2 b n) = (m ((c : Thread nD τ).loc main_arg1) : S1024x3125x4.Idx → EReal) (ix3 b n 2) := by
  have e : (V m c main_v9 : S1024x3125.Idx → EReal)
      = shapeCast S1024x3125 (extractStridedSlice S1024x3125x1 ![0, 0, 2] (m ((c : Thread nD τ).loc main_arg1) : S1024x3125x4.Idx → EReal) slices_S1024x3125x4_S1024x3125x1_0_0_2) shapeCasts_S1024x3125x1_S1024x3125 := by
    show StableHlo.after hostOps0 (fun b => m (c, b)) (Proc.devRef .tc main_v9) = _
    after_results; rfl
  rw [e]
  exact plane4_apply _ 2 (2 : Fin 4) rfl _ _ b n

theorem V_w5 (c : Dev nD) (b : Fin 1024) (n : Fin 3125) :
    (V m c main_v11 : S1024x3125.Idx → EReal) (ix2 b n) = (m ((c : Thread nD τ).loc main_arg1) : S1024x3125x4.Idx → EReal) (ix3 b n 3) := by
  have e : (V m c main_v11 : S1024x3125.Idx → EReal)
      = shapeCast S1024x3125 (extractStridedSlice S1024x3125x1 ![0, 0, 3] (m ((c : Thread nD τ).loc main_arg1) : S1024x3125x4.Idx → EReal) slices_S1024x3125x4_S1024x3125x1_0_0_3) shapeCasts_S1024x3125x1_S1024x3125 := by
    show StableHlo.after hostOps0 (fun b => m (c, b)) (Proc.devRef .tc main_v11) = _
    after_results; rfl
  rw [e]
  exact plane4_apply _ 3 (3 : Fin 4) rfl _ _ b n

theorem V_w6 (c : Dev nD) (b : Fin 1024) (n : Fin 3125) :
    (V m c main_v13 : S1024x3125.Idx → EReal) (ix2 b n) = (m ((c : Thread nD τ).loc main_arg2) : S1024x3125x4.Idx → EReal) (ix3 b n 0) := by
  have e : (V m c main_v13 : S1024x3125.Idx → EReal)
      = shapeCast S1024x3125 (extractStridedSlice S1024x3125x1 ![0, 0, 0] (m ((c : Thread nD τ).loc main_arg2) : S1024x3125x4.Idx → EReal) slices_S1024x3125x4_S1024x3125x1_0_0_0) shapeCasts_S1024x3125x1_S1024x3125 := by
    show StableHlo.after hostOps0 (fun b => m (c, b)) (Proc.devRef .tc main_v13) = _
    after_results; rfl
  rw [e]
  exact plane4_apply _ 0 (0 : Fin 4) rfl _ _ b n

theorem V_w7 (c : Dev nD) (b : Fin 1024) (n : Fin 3125) :
    (V m c main_v15 : S1024x3125.Idx → EReal) (ix2 b n) = (m ((c : Thread nD τ).loc main_arg2) : S1024x3125x4.Idx → EReal) (ix3 b n 1) := by
  have e : (V m c main_v15 : S1024x3125.Idx → EReal)
      = shapeCast S1024x3125 (extractStridedSlice S1024x3125x1 ![0, 0, 1] (m ((c : Thread nD τ).loc main_arg2) : S1024x3125x4.Idx → EReal) slices_S1024x3125x4_S1024x3125x1_0_0_1) shapeCasts_S1024x3125x1_S1024x3125 := by
    show StableHlo.after hostOps0 (fun b => m (c, b)) (Proc.devRef .tc main_v15) = _
    after_results; rfl
  rw [e]
  exact plane4_apply _ 1 (1 : Fin 4) rfl _ _ b n

theorem V_w8 (c : Dev nD) (b : Fin 1024) (n : Fin 3125) :
    (V m c main_v17 : S1024x3125.Idx → EReal) (ix2 b n) = (m ((c : Thread nD τ).loc main_arg2) : S1024x3125x4.Idx → EReal) (ix3 b n 2) := by
  have e : (V m c main_v17 : S1024x3125.Idx → EReal)
      = shapeCast S1024x3125 (extractStridedSlice S1024x3125x1 ![0, 0, 2] (m ((c : Thread nD τ).loc main_arg2) : S1024x3125x4.Idx → EReal) slices_S1024x3125x4_S1024x3125x1_0_0_2) shapeCasts_S1024x3125x1_S1024x3125 := by
    show StableHlo.after hostOps0 (fun b => m (c, b)) (Proc.devRef .tc main_v17) = _
    after_results; rfl
  rw [e]
  exact plane4_apply _ 2 (2 : Fin 4) rfl _ _ b n

theorem V_w9 (c : Dev nD) (b : Fin 1024) (n : Fin 3125) :
    (V m c main_v19 : S1024x3125.Idx → EReal) (ix2 b n) = (m ((c : Thread nD τ).loc main_arg2) : S1024x3125x4.Idx → EReal) (ix3 b n 3) := by
  have e : (V m c main_v19 : S1024x3125.Idx → EReal)
      = shapeCast S1024x3125 (extractStridedSlice S1024x3125x1 ![0, 0, 3] (m ((c : Thread nD τ).loc main_arg2) : S1024x3125x4.Idx → EReal) slices_S1024x3125x4_S1024x3125x1_0_0_3) shapeCasts_S1024x3125x1_S1024x3125 := by
    show StableHlo.after hostOps0 (fun b => m (c, b)) (Proc.devRef .tc main_v19) = _
    after_results; rfl
  rw [e]
  exact plane4_apply _ 3 (3 : Fin 4) rfl _ _ b n

/-! ## Which rows a point stages -/

/-- Every window's index map sends point t to block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- Row r of point t's blocks is batch row 64 t + r. -/
def rowOf (t : Fin cfg0.N) (r : Fin 64) : Fin 1024 := ⟨t.val * 64 + r.val, by
  have ht : t.val < 16 := t.isLt
  have hr : r.val < 64 := r.isLt
  omega⟩

theorem blk_w0 (c : Dev nD) (t : Fin cfg0.N) (r : Fin 64) (n : Fin 3125) :
    (iblk m c 0 t : S64x3125.Idx → EReal) (ix2 r n) = (V m c main_v1 : S1024x3125.Idx → EReal) (ix2 (rowOf t r) n) := by
  have hi := idx_facts t
  show (V m c main_v1 : S1024x3125.Idx → EReal) (((cfg0.win 0).blk t).view.emb (ix2 r n)) = _
  refine congrArg _ (funext fun a => Fin.ext ?_)
  match a with
  | ⟨0, _⟩ => show win0_0.index t (0 : Fin 2) * 64 + 1 * r.val = t.val * 64 + r.val; omega
  | ⟨1, _⟩ => show win0_0.index t (1 : Fin 2) * 3125 + 1 * n.val = n.val; omega

theorem blk_w1 (c : Dev nD) (t : Fin cfg0.N) (r : Fin 64) (n : Fin 3125) :
    (iblk m c 1 t : S64x3125.Idx → EReal) (ix2 r n) = (V m c main_v3 : S1024x3125.Idx → EReal) (ix2 (rowOf t r) n) := by
  have hi := idx_facts t
  show (V m c main_v3 : S1024x3125.Idx → EReal) (((cfg0.win 1).blk t).view.emb (ix2 r n)) = _
  refine congrArg _ (funext fun a => Fin.ext ?_)
  match a with
  | ⟨0, _⟩ => show win0_1.index t (0 : Fin 2) * 64 + 1 * r.val = t.val * 64 + r.val; omega
  | ⟨1, _⟩ => show win0_1.index t (1 : Fin 2) * 3125 + 1 * n.val = n.val; omega

theorem blk_w2 (c : Dev nD) (t : Fin cfg0.N) (r : Fin 64) (n : Fin 3125) :
    (iblk m c 2 t : S64x3125.Idx → EReal) (ix2 r n) = (V m c main_v5 : S1024x3125.Idx → EReal) (ix2 (rowOf t r) n) := by
  have hi := idx_facts t
  show (V m c main_v5 : S1024x3125.Idx → EReal) (((cfg0.win 2).blk t).view.emb (ix2 r n)) = _
  refine congrArg _ (funext fun a => Fin.ext ?_)
  match a with
  | ⟨0, _⟩ => show win0_2.index t (0 : Fin 2) * 64 + 1 * r.val = t.val * 64 + r.val; omega
  | ⟨1, _⟩ => show win0_2.index t (1 : Fin 2) * 3125 + 1 * n.val = n.val; omega

theorem blk_w3 (c : Dev nD) (t : Fin cfg0.N) (r : Fin 64) (n : Fin 3125) :
    (iblk m c 3 t : S64x3125.Idx → EReal) (ix2 r n) = (V m c main_v7 : S1024x3125.Idx → EReal) (ix2 (rowOf t r) n) := by
  have hi := idx_facts t
  show (V m c main_v7 : S1024x3125.Idx → EReal) (((cfg0.win 3).blk t).view.emb (ix2 r n)) = _
  refine congrArg _ (funext fun a => Fin.ext ?_)
  match a with
  | ⟨0, _⟩ => show win0_3.index t (0 : Fin 2) * 64 + 1 * r.val = t.val * 64 + r.val; omega
  | ⟨1, _⟩ => show win0_3.index t (1 : Fin 2) * 3125 + 1 * n.val = n.val; omega

theorem blk_w4 (c : Dev nD) (t : Fin cfg0.N) (r : Fin 64) (n : Fin 3125) :
    (iblk m c 4 t : S64x3125.Idx → EReal) (ix2 r n) = (V m c main_v9 : S1024x3125.Idx → EReal) (ix2 (rowOf t r) n) := by
  have hi := idx_facts t
  show (V m c main_v9 : S1024x3125.Idx → EReal) (((cfg0.win 4).blk t).view.emb (ix2 r n)) = _
  refine congrArg _ (funext fun a => Fin.ext ?_)
  match a with
  | ⟨0, _⟩ => show win0_4.index t (0 : Fin 2) * 64 + 1 * r.val = t.val * 64 + r.val; omega
  | ⟨1, _⟩ => show win0_4.index t (1 : Fin 2) * 3125 + 1 * n.val = n.val; omega

theorem blk_w5 (c : Dev nD) (t : Fin cfg0.N) (r : Fin 64) (n : Fin 3125) :
    (iblk m c 5 t : S64x3125.Idx → EReal) (ix2 r n) = (V m c main_v11 : S1024x3125.Idx → EReal) (ix2 (rowOf t r) n) := by
  have hi := idx_facts t
  show (V m c main_v11 : S1024x3125.Idx → EReal) (((cfg0.win 5).blk t).view.emb (ix2 r n)) = _
  refine congrArg _ (funext fun a => Fin.ext ?_)
  match a with
  | ⟨0, _⟩ => show win0_5.index t (0 : Fin 2) * 64 + 1 * r.val = t.val * 64 + r.val; omega
  | ⟨1, _⟩ => show win0_5.index t (1 : Fin 2) * 3125 + 1 * n.val = n.val; omega

theorem blk_w6 (c : Dev nD) (t : Fin cfg0.N) (r : Fin 64) (n : Fin 3125) :
    (iblk m c 6 t : S64x3125.Idx → EReal) (ix2 r n) = (V m c main_v13 : S1024x3125.Idx → EReal) (ix2 (rowOf t r) n) := by
  have hi := idx_facts t
  show (V m c main_v13 : S1024x3125.Idx → EReal) (((cfg0.win 6).blk t).view.emb (ix2 r n)) = _
  refine congrArg _ (funext fun a => Fin.ext ?_)
  match a with
  | ⟨0, _⟩ => show win0_6.index t (0 : Fin 2) * 64 + 1 * r.val = t.val * 64 + r.val; omega
  | ⟨1, _⟩ => show win0_6.index t (1 : Fin 2) * 3125 + 1 * n.val = n.val; omega

theorem blk_w7 (c : Dev nD) (t : Fin cfg0.N) (r : Fin 64) (n : Fin 3125) :
    (iblk m c 7 t : S64x3125.Idx → EReal) (ix2 r n) = (V m c main_v15 : S1024x3125.Idx → EReal) (ix2 (rowOf t r) n) := by
  have hi := idx_facts t
  show (V m c main_v15 : S1024x3125.Idx → EReal) (((cfg0.win 7).blk t).view.emb (ix2 r n)) = _
  refine congrArg _ (funext fun a => Fin.ext ?_)
  match a with
  | ⟨0, _⟩ => show win0_7.index t (0 : Fin 2) * 64 + 1 * r.val = t.val * 64 + r.val; omega
  | ⟨1, _⟩ => show win0_7.index t (1 : Fin 2) * 3125 + 1 * n.val = n.val; omega

theorem blk_w8 (c : Dev nD) (t : Fin cfg0.N) (r : Fin 64) (n : Fin 3125) :
    (iblk m c 8 t : S64x3125.Idx → EReal) (ix2 r n) = (V m c main_v17 : S1024x3125.Idx → EReal) (ix2 (rowOf t r) n) := by
  have hi := idx_facts t
  show (V m c main_v17 : S1024x3125.Idx → EReal) (((cfg0.win 8).blk t).view.emb (ix2 r n)) = _
  refine congrArg _ (funext fun a => Fin.ext ?_)
  match a with
  | ⟨0, _⟩ => show win0_8.index t (0 : Fin 2) * 64 + 1 * r.val = t.val * 64 + r.val; omega
  | ⟨1, _⟩ => show win0_8.index t (1 : Fin 2) * 3125 + 1 * n.val = n.val; omega

theorem blk_w9 (c : Dev nD) (t : Fin cfg0.N) (r : Fin 64) (n : Fin 3125) :
    (iblk m c 9 t : S64x3125.Idx → EReal) (ix2 r n) = (V m c main_v19 : S1024x3125.Idx → EReal) (ix2 (rowOf t r) n) := by
  have hi := idx_facts t
  show (V m c main_v19 : S1024x3125.Idx → EReal) (((cfg0.win 9).blk t).view.emb (ix2 r n)) = _
  refine congrArg _ (funext fun a => Fin.ext ?_)
  match a with
  | ⟨0, _⟩ => show win0_9.index t (0 : Fin 2) * 64 + 1 * r.val = t.val * 64 + r.val; omega
  | ⟨1, _⟩ => show win0_9.index t (1 : Fin 2) * 3125 + 1 * n.val = n.val; omega

theorem blk_w10 (c : Dev nD) (t : Fin cfg0.N) (r : Fin 64) (n : Fin 3125) :
    (iblk m c 10 t : S64x3125.Idx → BitVec 32) (ix2 r n) = (V m c main_arg3 : S1024x3125.Idx → BitVec 32) (ix2 (rowOf t r) n) := by
  have hi := idx_facts t
  show (V m c main_arg3 : S1024x3125.Idx → BitVec 32) (((cfg0.win 10).blk t).view.emb (ix2 r n)) = _
  refine congrArg _ (funext fun a => Fin.ext ?_)
  match a with
  | ⟨0, _⟩ => show win0_10.index t (0 : Fin 2) * 64 + 1 * r.val = t.val * 64 + r.val; omega
  | ⟨1, _⟩ => show win0_10.index t (1 : Fin 2) * 3125 + 1 * n.val = n.val; omega

/-! ## The two outputs, row by row -/

/-- The classification loss of batch row b, kernel writing, of the arguments. -/
def rowC (c : Dev nD) (b : Fin 1024) : EReal :=
  cPerK (fun n : Fin 3125 => (m ((c : Thread nD τ).loc main_arg0) : S1024x3125x2.Idx → EReal) (ix3 b n 0))
    (fun n : Fin 3125 => (m ((c : Thread nD τ).loc main_arg0) : S1024x3125x2.Idx → EReal) (ix3 b n 1))
    (fun n : Fin 3125 => (m ((c : Thread nD τ).loc main_arg3) : S1024x3125.Idx → BitVec 32) (ix2 b n))

/-- The regression loss of batch row b, kernel writing, of the arguments. -/
def rowR (c : Dev nD) (b : Fin 1024) : EReal :=
  rPerK (fun (k : Fin 4) (n : Fin 3125) => (m ((c : Thread nD τ).loc main_arg1) : S1024x3125x4.Idx → EReal) (ix3 b n k))
    (fun (k : Fin 4) (n : Fin 3125) => (m ((c : Thread nD τ).loc main_arg2) : S1024x3125x4.Idx → EReal) (ix3 b n k))
    (fun n : Fin 3125 => (m ((c : Thread nD τ).loc main_arg3) : S1024x3125.Idx → BitVec 32) (ix2 b n))

/-- The first output array: entry (b, 0) is row b's classification loss. -/
def arrC (c : Dev nD) : S1024x1.Idx → EReal := fun j => rowC m c (j 0)

/-- The second output array: entry (b, 0) is row b's regression loss. -/
def arrR (c : Dev nD) : S1024x1.Idx → EReal := fun j => rowR m c (j 0)

theorem hz : (![0, 0] : Fin 2 → Nat) = fun _ => 0 := funext fun a => by fin_cases a <;> rfl

/-- The label block's row r at point t is the label argument's batch row 64 t + r. -/
theorem lbl_row (c : Dev nD) (t : Fin cfg0.N) (r : Fin 64) (n : Fin 3125) :
    (iblk m c 10 t : S64x3125.Idx → BitVec 32) (ix2 r n) = (m ((c : Thread nD τ).loc main_arg3) : S1024x3125.Idx → BitVec 32) (ix2 (rowOf t r) n) := by
  rw [blk_w10 m c t r n]
  exact congrFun (V_main_arg3 m c) _

/-- Where point t's output block lies: entry (r, 0) of the block is entry (64 t + r, 0) of the array. -/
theorem out_emb11 (t : Fin cfg0.N) (r : Fin 64) : ((cfg0.win 11).blk t).view.emb (ix2 r (0 : Fin 1)) = (ix2 (rowOf t r) (0 : Fin 1) : S1024x1.Idx) := by
  have hi := idx_facts t
  refine funext fun a => Fin.ext ?_
  match a with
  | ⟨0, _⟩ => show win0_11.index t (0 : Fin 2) * 64 + 1 * r.val = t.val * 64 + r.val; omega
  | ⟨1, _⟩ => show win0_11.index t (1 : Fin 2) * 1 + 1 * 0 = 0; omega

theorem out_emb12 (t : Fin cfg0.N) (r : Fin 64) : ((cfg0.win 12).blk t).view.emb (ix2 r (0 : Fin 1)) = (ix2 (rowOf t r) (0 : Fin 1) : S1024x1.Idx) := by
  have hi := idx_facts t
  refine funext fun a => Fin.ext ?_
  match a with
  | ⟨0, _⟩ => show win0_12.index t (0 : Fin 2) * 64 + 1 * r.val = t.val * 64 + r.val; omega
  | ⟨1, _⟩ => show win0_12.index t (1 : Fin 2) * 1 + 1 * 0 = 0; omega

/-- What a write-back of a staging buffer holding X writes, at (r, 0): X there (the blocks do not overhang). -/
theorem cut12_row {α : Type} (t : Fin cfg0.N) (X : S64x1.Idx → α) (r : Fin 64) :
    ((cfg0.win 12).cut (grid0.coords t) X : S64x1.Idx → α) (ix2 r (0 : Fin 1)) = X (ix2 r (0 : Fin 1)) := rfl

/-- Block t of a whole-array function G, at (r, 0), is G at (64 t + r, 0). -/
theorem read12_row (t : Fin cfg0.N) (G : S1024x1.Idx → EReal) (r : Fin 64) :
    (((cfg0.win 12).blk t).view.read (Elt Ideal) G : S64x1.Idx → EReal) (ix2 r (0 : Fin 1)) = G (ix2 (rowOf t r) (0 : Fin 1)) := by
  show G (((cfg0.win 12).blk t).view.emb (ix2 r (0 : Fin 1))) = _
  rw [out_emb12 t r]

/-- WHAT POINT t WRITES BACK to the first output is block t of `arrC`. -/
theorem flushed11_eq (c : Dev nD) (t : Fin cfg0.N) :
    (dats m 0 c).flushed 11 t = ((cfg0.win 11).blk t).view.read (Elt Ideal) (arrC m c) := by
  show (cfg0.win 11).cut (grid0.coords t) ((dats m 0 c).after 11 t) = _
  rw [after0_11]
  refine funext fun (y : S64x1.Idx) => ?_
  obtain ⟨r, q, rfl⟩ : ∃ (r : Fin 64) (q : Fin 1), y = ix2 r q := ⟨y 0, y 1, eq_ix2 y⟩
  obtain rfl : q = 0 := Subsingleton.elim _ _
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r (0 : Fin 1)) = arrC m c (((cfg0.win 11).blk t).view.emb (ix2 r (0 : Fin 1)))
  rw [out_emb11 t r]
  refine (Payload.out0_11_row (iblk m c 0 t) (iblk m c 1 t) (iblk m c 2 t) (iblk m c 3 t) (iblk m c 4 t) (iblk m c 5 t) (iblk m c 6 t) (iblk m c 7 t) (iblk m c 8 t) (iblk m c 9 t) (iblk m c 10 t) r).trans ?_
  show _ = rowC m c (rowOf t r)
  unfold rowC
  congr 1
  · funext n; rw [blk_w0 m c t r n]; exact V_w0 m c _ n
  · funext n; rw [blk_w1 m c t r n]; exact V_w1 m c _ n
  · funext n; exact lbl_row m c t r n

/-- WHAT POINT t WRITES BACK to the second output is block t of `arrR`. -/
theorem flushed12_eq (c : Dev nD) (t : Fin cfg0.N) :
    (dats m 0 c).flushed 12 t = ((cfg0.win 12).blk t).view.read (Elt Ideal) (arrR m c) := by
  show (cfg0.win 12).cut (grid0.coords t) ((dats m 0 c).after 12 t) = _
  rw [after0_12]
  refine funext fun (y : S64x1.Idx) => ?_
  obtain ⟨r, q, rfl⟩ : ∃ (r : Fin 64) (q : Fin 1), y = ix2 r q := ⟨y 0, y 1, eq_ix2 y⟩
  obtain rfl : q = 0 := Subsingleton.elim _ _
  refine (cut12_row t (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) r).trans ?_
  refine Eq.trans ?_ (read12_row t (arrR m c) r).symm
  refine (Payload.out0_12_row (iblk m c 0 t) (iblk m c 1 t) (iblk m c 2 t) (iblk m c 3 t) (iblk m c 4 t) (iblk m c 5 t) (iblk m c 6 t) (iblk m c 7 t) (iblk m c 8 t) (iblk m c 9 t) (iblk m c 10 t) r).trans ?_
  show _ = rowR m c (rowOf t r)
  unfold rowR
  congr 1
  · funext k n
    fin_cases k
    · show (iblk m c 2 t : S64x3125.Idx → EReal) (ix2 r n) = _; rw [blk_w2 m c t r n]; exact V_w2 m c _ n
    · show (iblk m c 3 t : S64x3125.Idx → EReal) (ix2 r n) = _; rw [blk_w3 m c t r n]; exact V_w3 m c _ n
    · show (iblk m c 4 t : S64x3125.Idx → EReal) (ix2 r n) = _; rw [blk_w4 m c t r n]; exact V_w4 m c _ n
    · show (iblk m c 5 t : S64x3125.Idx → EReal) (ix2 r n) = _; rw [blk_w5 m c t r n]; exact V_w5 m c _ n
  · funext k n
    fin_cases k
    · show (iblk m c 6 t : S64x3125.Idx → EReal) (ix2 r n) = _; rw [blk_w6 m c t r n]; exact V_w6 m c _ n
    · show (iblk m c 7 t : S64x3125.Idx → EReal) (ix2 r n) = _; rw [blk_w7 m c t r n]; exact V_w7 m c _ n
    · show (iblk m c 8 t : S64x3125.Idx → EReal) (ix2 r n) = _; rw [blk_w8 m c t r n]; exact V_w8 m c _ n
    · show (iblk m c 9 t : S64x3125.Idx → EReal) (ix2 r n) = _; rw [blk_w9 m c t r n]; exact V_w9 m c _ n
  · funext n; exact lbl_row m c t r n

/-! ## The sixteen blocks tile the 1024 rows -/

theorem mem_blk11 (t : Fin cfg0.N) (i : S1024x1.Idx) :
    i ∈ ((cfg0.win 11).blk t).view.set ↔ ∀ a : Fin 2, win0_11.index t a * S64x1.size a ≤ (i a).val ∧ (i a).val < win0_11.index t a * S64x1.size a + S64x1.size a := by
  show i ∈ ((View.whole main_v20_0).slice (win0_11.rect t)).set ↔ _
  rw [View.set_slice_whole, Rect.mem_set_unit]
  exact Iff.rfl

theorem mem_blk12 (t : Fin cfg0.N) (i : S1024x1.Idx) :
    i ∈ ((cfg0.win 12).blk t).view.set ↔ ∀ a : Fin 2, win0_12.index t a * S64x1.size a ≤ (i a).val ∧ (i a).val < win0_12.index t a * S64x1.size a + S64x1.size a := by
  show i ∈ ((View.whole main_v20_1).slice (win0_12.rect t)).set ↔ _
  rw [View.set_slice_whole, Rect.mem_set_unit]
  exact Iff.rfl

/-- Row b of a [1024, 1] output is in the block of point b / 64. -/
theorem cover11 (i : S1024x1.Idx) : ∃ t : Fin cfg0.N, (cfg0.win 11).flush t = true ∧ i ∈ ((cfg0.win 11).blk t).view.set := by
  have hi0 : (i 0).val < 1024 := (i 0).isLt
  have hi1 : (i 1).val < 1 := (i 1).isLt
  let t : Fin cfg0.N := ⟨(i 0).val / 64, by show (i 0).val / 64 < 16; omega⟩
  have ht := idx_facts t
  refine ⟨t, flush0_11 t, ?_⟩
  rw [mem_blk11]
  intro a
  match a with
  | ⟨0, _⟩ => show win0_11.index t (0 : Fin 2) * 64 ≤ (i 0).val ∧ (i 0).val < win0_11.index t (0 : Fin 2) * 64 + 64
              have : t.val = (i 0).val / 64 := rfl
              omega
  | ⟨1, _⟩ => show win0_11.index t (1 : Fin 2) * 1 ≤ (i 1).val ∧ (i 1).val < win0_11.index t (1 : Fin 2) * 1 + 1; omega

theorem cover12 (i : S1024x1.Idx) : ∃ t : Fin cfg0.N, (cfg0.win 12).flush t = true ∧ i ∈ ((cfg0.win 12).blk t).view.set := by
  have hi0 : (i 0).val < 1024 := (i 0).isLt
  have hi1 : (i 1).val < 1 := (i 1).isLt
  let t : Fin cfg0.N := ⟨(i 0).val / 64, by show (i 0).val / 64 < 16; omega⟩
  have ht := idx_facts t
  refine ⟨t, flush0_12 t, ?_⟩
  rw [mem_blk12]
  intro a
  match a with
  | ⟨0, _⟩ => show win0_12.index t (0 : Fin 2) * 64 ≤ (i 0).val ∧ (i 0).val < win0_12.index t (0 : Fin 2) * 64 + 64
              have : t.val = (i 0).val / 64 := rfl
              omega
  | ⟨1, _⟩ => show win0_12.index t (1 : Fin 2) * 1 ≤ (i 1).val ∧ (i 1).val < win0_12.index t (1 : Fin 2) * 1 + 1; omega

/-! ## The arrays after the region -/

theorem final11 (c : Dev nD) : (dats m 0 c).arrAt 11 cfg0.N = arrC m c :=
  (dats m 0 c).arrAt_eq_of_cover 11 (arrC m c) (fun t _ => flushed11_eq m c t) cover11

theorem final12 (c : Dev nD) : (dats m 0 c).arrAt 12 cfg0.N = arrR m c :=
  (dats m 0 c).arrAt_eq_of_cover 12 (arrR m c) (fun t _ => flushed12_eq m c t) cover12

end Cert.KernelIdeal.Arrays

end
-- ==== Proof.KTail.lean ====
/-
  The three results the kernel's program leaves, as functions of the arguments.

  After the region the host sums each [1024, 1] output over both its axes from zero and divides by the word 1024.0:
  since entry (b, 0) of an output is a function of the row b alone, that is the mean over the 1024 rows of the row's
  loss. The third result is the first plus the word 5.0 times the second. The arguments themselves are written by
  no operation, before, in or after the region.
-/
import proofs.«429505_j27590869909512_4_alg».proof.Proof.KArrays

set_option maxRecDepth 16384

noncomputable section

namespace Cert.KernelIdeal.Tail

open Cert.KernelIdeal Cert.KernelIdeal.Gen Cert.KernelIdeal.Arrays Cert.SiamRpnLoss
open Idealize.ShloMosaic Idealize.ShloMosaic.TcCoe Idealize.ShloMosaic.ValueIdx Idealize.SL.Sem

/-- A sum over the [1024, 1] index of a function of the row is the sum over the 1024 rows. -/
theorem sum_rows (f : Fin 1024 → EReal) : ∑ i : S1024x1.Idx, f (i 0) = ∑ b : Fin 1024, f b := by
  rw [sum_idx2]
  refine Finset.sum_congr rfl fun a _ => ?_
  rw [Fin.sum_univ_one]

/-- The host's mean of a [1024, 1] array whose entry (b, 0) is f b: the sum over both axes from zero, divided by 1024. -/
theorem mean_of_rows (A : S1024x1.Idx → EReal) (f : Fin 1024 → EReal) (hA : A = fun j => f (j 0)) (i : S_.Idx) :
    (Host.divf (F := Ideal) (Host.reduceAdd (F := Ideal) (A : FVec Ideal S1024x1 .f32) (constant (F := Ideal) S_ .f32 0x00000000#32) Gen.reducesTo_S1024x1_S_d0_1 Gen.h_S_)
      (constant (F := Ideal) S_ .f32 0x44800000#32) : S_.Idx → EReal) i = rowMean f := by
  subst hA
  have hs : (Host.reduceAdd (F := Ideal) ((fun j => f (j 0)) : FVec Ideal S1024x1 .f32) (constant (F := Ideal) S_ .f32 0x00000000#32) Gen.reducesTo_S1024x1_S_d0_1 Gen.h_S_ : S_.Idx → EReal) i
      = w0 + ∑ j : S1024x1.Idx, f (j 0) := by
    simp only [Host.reduceAdd, Ideal.hostReduceAdd_def]
    exact Ideal.hostReduceAdd_total Gen.reducesTo_S1024x1_S_d0_1 (fun b => b.elim0) _ _ i
  show Ideal.div _ w1024 = _
  rw [hs, sum_rows]
  rfl

variable (m : (ℓ : Loc nD τ sig) → Buf (Elt Ideal) ℓ)

/-- After the region the first output array is `arrC`. -/
theorem arr11 (c : Dev nD) : (Pipeline.withArrays (cfgs 0).spec c (V0 m c) (fun w => (dats m 0 c).arrAt w (cfgs 0).N) (Proc.devRef .tc main_v20_0)) = arrC m c :=
  (Pipeline.withArrays_arr spec0 launch0.win.arr_inj c (V0 m c) _ 11).trans (final11 m c)

/-- After the region the second output array is `arrR`. -/
theorem arr12 (c : Dev nD) : (Pipeline.withArrays (cfgs 0).spec c (V0 m c) (fun w => (dats m 0 c).arrAt w (cfgs 0).N) (Proc.devRef .tc main_v20_1)) = arrR m c :=
  (Pipeline.withArrays_arr spec0 launch0.win.arr_inj c (V0 m c) _ 12).trans (final12 m c)

/-- The first result: the mean classification loss. -/
theorem tail_v22 (c : Dev nD) :
    (Pipeline.afterTail₀ cfgs (dats m) 0 (V0 m) [hostOps1] c main_v22 : S_.Idx → EReal)
      = fun _ => cLossK (m ((c : Thread nD τ).loc main_arg0)) (m ((c : Thread nD τ).loc main_arg3)) := by
  unfold Pipeline.afterTail₀
  show StableHlo.after hostOps1 _ (Proc.devRef .tc main_v22) = _
  after_results
  rw [arr11 m c]
  funext i
  exact mean_of_rows (arrC m c) (rowC m c) rfl i

/-- The second result: the mean regression loss. -/
theorem tail_v24 (c : Dev nD) :
    (Pipeline.afterTail₀ cfgs (dats m) 0 (V0 m) [hostOps1] c main_v24 : S_.Idx → EReal)
      = fun _ => rLossK (m ((c : Thread nD τ).loc main_arg1)) (m ((c : Thread nD τ).loc main_arg2)) (m ((c : Thread nD τ).loc main_arg3)) := by
  unfold Pipeline.afterTail₀
  show StableHlo.after hostOps1 _ (Proc.devRef .tc main_v24) = _
  after_results
  rw [arr12 m c]
  funext i
  exact mean_of_rows (arrR m c) (rowR m c) rfl i

/-- The third result: the first plus five times the second. -/
theorem tail_v26 (c : Dev nD) :
    (Pipeline.afterTail₀ cfgs (dats m) 0 (V0 m) [hostOps1] c main_v26 : S_.Idx → EReal)
      = fun _ => total (cLossK (m ((c : Thread nD τ).loc main_arg0)) (m ((c : Thread nD τ).loc main_arg3)))
          (rLossK (m ((c : Thread nD τ).loc main_arg1)) (m ((c : Thread nD τ).loc main_arg2)) (m ((c : Thread nD τ).loc main_arg3))) := by
  unfold Pipeline.afterTail₀
  show StableHlo.after hostOps1 _ (Proc.devRef .tc main_v26) = _
  after_results
  rw [arr11 m c, arr12 m c]
  funext i
  show (_ : EReal) + w5 * (_ : EReal) = _
  rw [mean_of_rows (arrC m c) (rowC m c) rfl i, mean_of_rows (arrR m c) (rowR m c) rfl i]
  rfl

/-! ## The run -/

/-- Every weakly fair execution of the kernel's program terminates with the three results at the kernel writing of the
    losses of the arguments, and the arguments unchanged. -/
theorem run (ρ : Dev nD → PrngReg) :
    θ_run defs (onTc (τ := τ) (main (F := Ideal))) ⟨m, fun _ => 0, ρ⟩ (fun r => ∀ c : Dev nD,
      (r.2.mem ((c.tc : Thread nD τ).loc main_v22) : S_.Idx → EReal)
          = (fun _ => cLossK (m ((c.tc : Thread nD τ).loc main_arg0)) (m ((c.tc : Thread nD τ).loc main_arg3)))
      ∧ (r.2.mem ((c.tc : Thread nD τ).loc main_v24) : S_.Idx → EReal)
          = (fun _ => rLossK (m ((c.tc : Thread nD τ).loc main_arg1)) (m ((c.tc : Thread nD τ).loc main_arg2)) (m ((c.tc : Thread nD τ).loc main_arg3)))
      ∧ (r.2.mem ((c.tc : Thread nD τ).loc main_v26) : S_.Idx → EReal)
          = (fun _ => total (cLossK (m ((c.tc : Thread nD τ).loc main_arg0)) (m ((c.tc : Thread nD τ).loc main_arg3)))
              (rLossK (m ((c.tc : Thread nD τ).loc main_arg1)) (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (Pipeline.mem_restRefs_of main_v22 (by decide) (by decide))).trans (tail_v22 m c),
     ((h c).2 main_v24 (Pipeline.mem_restRefs_of main_v24 (by decide) (by decide))).trans (tail_v24 m c),
     ((h c).2 main_v26 (Pipeline.mem_restRefs_of main_v26 (by decide) (by decide))).trans (tail_v26 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 10).trans (((dats m 0 c).arrAt_in 10 rfl _).trans ((A_eq m c 10).trans (V_main_arg3 m c)))⟩)
    (run_main m ρ)

end Cert.KernelIdeal.Tail

end
-- ==== Proof.RefValue.lean ====
/-
  The reference's first result is the reference writing of the classification loss.

  Read one operation at a time, the reference computes, for batch row b: the counts of positive and negative anchors
  as 32-bit integer sums of the label masks along the anchors, converted to floats; the log-softmax of the two logits
  of every anchor (the row maximum folded from minus infinity and taken against minus infinity once more, the shifted
  exponentials summed from zero, the log, the shifted logit less that log); the sums along the anchors, from zero, of
  the negated log-probabilities times the float masks; each sum divided by its count clamped below by one, the first
  kept only where its count is positive; half their sum; and then the mean over the 1024 rows.
-/
import proofs.«429505_j27590869909512_4_alg».proof.Proof.RefRead
import proofs.«429505_j27590869909512_4_alg».proof.Proof.Spec
import proofs.«429505_j27590869909512_4_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.ReadP Cert.SiamRpnLoss Idealize.ShloMosaic Idealize.ShloMosaic.ValueIdx

/-! ## A reduction along one axis, by coordinates -/

/-- Row b with anchor k put back on the anchors axis is (b, k). -/
private theorem lift_anchor (h : S1024x3125.Reduces [1] S1024) (b : Fin 1024) (k : Fin (S1024x3125.size 1)) :
    h.lift (ix1 b) k = ix2 b (⟨k.val, k.isLt⟩ : Fin 3125) := by
  funext c; apply Fin.ext
  fin_cases c <;> rfl

/-- Anchor (b, n) with class k put back on the class axis is (b, n, k). -/
private theorem lift_class (h : S1024x3125x2.Reduces [2] S1024x3125) (b : Fin 1024) (n : Fin 3125)
    (k : Fin (S1024x3125x2.size 2)) : h.lift (ix2 b n) k = ix3 b n (⟨k.val, k.isLt⟩ : Fin 2) := by
  funext c; apply Fin.ext
  fin_cases c <;> rfl

/-- A 32-bit integer sum along the anchors from the zero word, at row b, is the fold of the 32-bit addition over
    the anchors: the addition commutes and associates, so the order the anchors are taken in does not matter. -/
private theorem reduce_addi_row (y : S1024x3125.Idx → BitVec 32) (h' : S1024x3125.ReducesTo [1] S1024) (hu : 0 < S_.numel)
    (b : Fin 1024) :
    Host.reduce IntOp.addi y (constantI S_ 32 0#32) h' hu (ix1 b)
      = (Finset.univ : Finset (Fin 3125)).fold IntOp.addi 0#32 (fun n => y (ix2 b n)) := by
  have h : S1024x3125.Reduces [1] S1024 := by decide
  rw [Host.reduce_eq_fold_single IntOp.addi y _ h' h hu]
  have hf : (y ∘ h.lift (ix1 b)) = fun n : Fin 3125 => y (ix2 b n) := funext fun k => congrArg y (lift_anchor h b k)
  exact congrArg (fun f => Finset.fold IntOp.addi 0#32 f (Finset.univ : Finset (Fin 3125))) hf

/-- A maximum along the class axis from minus infinity, at anchor (b, n), is the fold of the maximum over the two classes. -/
private theorem reduce_max_class (x : S1024x3125x2.Idx → EReal) (h' : S1024x3125x2.ReducesTo [2] S1024x3125) (hu : 0 < S_.numel)
    (b : Fin 1024) (n : Fin 3125) :
    Host.reduce (FloatOps.maximumf (F := Ideal) (φ := .f32)) x (constant (F := Ideal) S_ .f32 0xFF800000#32) h' hu (ix2 b n)
      = (Finset.univ : Finset (Fin 2)).fold max wNegInf (fun k => x (ix3 b n k)) := by
  have h : S1024x3125x2.Reduces [2] S1024x3125 := by decide
  rw [Host.reduce_eq_fold_single (FloatOps.maximumf (F := Ideal) (φ := .f32)) x _ h' h hu]
  have hf : (x ∘ h.lift (ix2 b n)) = fun k : Fin 2 => x (ix3 b n k) := funext fun k => congrArg x (lift_class h b n k)
  exact congrArg (fun f => Finset.fold max wNegInf f (Finset.univ : Finset (Fin 2))) hf

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Stages

variable (x0 : (⟨S1024x3125x2, .f32⟩ : BufTy).Contents (Elt Ideal)) (x3 : (⟨S1024x3125, .i32⟩ : BufTy).Contents (Elt Ideal))

/-! ## The two counts of a row -/

/-- The widened mask of the positive anchors, at anchor (b, n). -/
private theorem widePos_at (b : Fin 1024) (n : Fin 3125) :
    val_main_v4 (F := Ideal) x3 (ix2 b n) = (IntOp.cmpi .eq (x3 (ix2 b n)) 1#32).setWidth 32 := by
  rw [val_main_v4_apply, val_main_v1_apply, val_main_v0_apply, val_main_c_apply]

/-- The widened mask of the negative anchors, at anchor (b, n). -/
private theorem wideNeg_at (b : Fin 1024) (n : Fin 3125) :
    val_main_v7 (F := Ideal) x3 (ix2 b n) = (IntOp.cmpi .eq (x3 (ix2 b n)) 0#32).setWidth 32 := by
  rw [val_main_v7_apply, val_main_v3_apply, val_main_v2_apply, val_main_c_0_apply]

/-- Row b's count of positive anchors: the 32-bit sum of the widened masks, read signed. -/
theorem pos_count (b : Fin 1024) :
    val_main_v6 (F := Ideal) x3 (ix1 b) = cntR (fun n : Fin 3125 => x3 (ix2 b n)) 1#32 := by
  have h5 : val_main_v5 (F := Ideal) x3 (ix1 b)
      = (Finset.univ : Finset (Fin 3125)).fold IntOp.addi 0#32 (fun n => val_main_v4 (F := Ideal) x3 (ix2 b n)) :=
    reduce_addi_row (val_main_v4 (F := Ideal) x3) _ _ b
  have hf : (fun n : Fin 3125 => val_main_v4 (F := Ideal) x3 (ix2 b n))
      = fun n => (IntOp.cmpi .eq (x3 (ix2 b n)) 1#32).setWidth 32 := funext fun n => widePos_at x3 b n
  rw [val_main_v6_apply, h5, hf]
  rfl

/-- Row b's count of negative anchors. -/
theorem neg_count (b : Fin 1024) :
    val_main_v9 (F := Ideal) x3 (ix1 b) = cntR (fun n : Fin 3125 => x3 (ix2 b n)) 0#32 := by
  have h8 : val_main_v8 (F := Ideal) x3 (ix1 b)
      = (Finset.univ : Finset (Fin 3125)).fold IntOp.addi 0#32 (fun n => val_main_v7 (F := Ideal) x3 (ix2 b n)) :=
    reduce_addi_row (val_main_v7 (F := Ideal) x3) _ _ b
  have hf : (fun n : Fin 3125 => val_main_v7 (F := Ideal) x3 (ix2 b n))
      = fun n => (IntOp.cmpi .eq (x3 (ix2 b n)) 0#32).setWidth 32 := funext fun n => wideNeg_at x3 b n
  rw [val_main_v9_apply, h8, hf]
  rfl

/-! ## The log-softmax of one anchor -/

/-- The larger logit of anchor (b, n): the fold from minus infinity, taken against minus infinity once more. -/
private theorem rowMax_at (b : Fin 1024) (n : Fin 3125) :
    val_main_call0_v2 (F := Ideal) x0 (ix2 b n) = rowMax (fun j : Fin 2 => x0 (ix3 b n j)) := by
  have h0 : val_main_call0_v0 (F := Ideal) x0 (ix2 b n)
      = (Finset.univ : Finset (Fin 2)).fold max wNegInf (fun k => x0 (ix3 b n k)) :=
    reduce_max_class x0 _ _ b n
  rw [val_main_call0_v2_apply, val_main_call0_v1_apply, val_main_call0_cst_0_apply, h0]
  rfl

/-- The shifted logit of class k at anchor (b, n). -/
private theorem shifted_at (b : Fin 1024) (n : Fin 3125) (k : Fin 2) :
    val_main_call0_v5 (F := Ideal) x0 (ix3 b n k) = x0 (ix3 b n k) - rowMax (fun j : Fin 2 => x0 (ix3 b n j)) := by
  have hi : idx_main_call0_v3 (idx_main_call0_v4 (ix3 b n k)) = ix2 b n :=
    funext fun a => Fin.ext (by match a with | ⟨0, _⟩ => rfl | ⟨1, _⟩ => rfl)
  rw [val_main_call0_v5_apply, val_main_call0_v4_apply, val_main_call0_v3_apply, hi, rowMax_at]
  rfl

/-- The sum, from zero, of the two shifted exponentials at anchor (b, n). -/
private theorem expSum_at (b : Fin 1024) (n : Fin 3125) :
    val_main_call0_v7 (F := Ideal) x0 (ix2 b n)
      = w0 + ∑ j : Fin 2, Ideal.exp (x0 (ix3 b n j) - rowMax (fun j : Fin 2 => x0 (ix3 b n j))) := by
  rw [val_main_call0_v7_apply, val_main_call0_cst_1_apply, Ideal.ofBits_def]
  refine congrArg (_ + ·) (Finset.sum_congr rfl fun j _ => ?_)
  have hi : idx_main_call0_v7 (ix2 b n) j = ix3 b n j :=
    funext fun a => Fin.ext (by match a with | ⟨0, _⟩ => rfl | ⟨1, _⟩ => rfl | ⟨2, _⟩ => rfl)
  rw [hi, val_main_call0_v6_apply, shifted_at]
  rfl

/-- The log-softmax of anchor (b, n) at class k. -/
theorem logSoftmax_at (b : Fin 1024) (n : Fin 3125) (k : Fin 2) :
    val_main_v10 (F := Ideal) x0 (ix3 b n k) = logSoftmax (fun j : Fin 2 => x0 (ix3 b n j)) k := by
  have hi : idx_main_call0_v8 (idx_main_call0_v10 (ix3 b n k)) = ix2 b n :=
    funext fun a => Fin.ext (by match a with | ⟨0, _⟩ => rfl | ⟨1, _⟩ => rfl)
  rw [val_main_v10_apply, val_main_call0_v10_apply, val_main_call0_v9_apply, val_main_call0_v8_apply, hi, expSum_at,
    shifted_at]
  rfl

/-! ## The masked sums of a row -/

/-- The class-1 slice, flattened back to (batch row, anchor), reads the log-softmax at (b, n, 1). -/
private theorem idx_class1 (b : Fin 1024) (n : Fin 3125) : idx_main_v11 (idx_main_v12 (ix2 b n)) = ix3 b n (1 : Fin 2) := by
  funext a; apply Fin.ext
  have hb := b.isLt; have hn := n.isLt
  match a with
  | ⟨0, _⟩ => show (b.val * 3125 + n.val) / 3125 = b.val; omega
  | ⟨1, _⟩ => show (b.val * 3125 + n.val) / 1 % 3125 = n.val; omega
  | ⟨2, _⟩ => rfl

/-- The class-0 slice, flattened back to (batch row, anchor), reads the log-softmax at (b, n, 0). -/
private theorem idx_class0 (b : Fin 1024) (n : Fin 3125) : idx_main_v14 (idx_main_v15 (ix2 b n)) = ix3 b n (0 : Fin 2) := by
  funext a; apply Fin.ext
  have hb := b.isLt; have hn := n.isLt
  match a with
  | ⟨0, _⟩ => show (b.val * 3125 + n.val) / 3125 = b.val; omega
  | ⟨1, _⟩ => show (b.val * 3125 + n.val) / 1 % 3125 = n.val; omega
  | ⟨2, _⟩ => rfl

/-- The cross-entropy against class 1 at anchor (b, n): minus the log-softmax at class 1. -/
private theorem cePos_at (b : Fin 1024) (n : Fin 3125) :
    val_main_v13 (F := Ideal) x0 (ix2 b n) = -(logSoftmax (fun j : Fin 2 => x0 (ix3 b n j)) 1) := by
  rw [val_main_v13_apply, val_main_v12_apply, val_main_v11_apply, idx_class1, logSoftmax_at]
  rfl

/-- The cross-entropy against class 0 at anchor (b, n): minus the log-softmax at class 0. -/
private theorem ceNeg_at (b : Fin 1024) (n : Fin 3125) :
    val_main_v16 (F := Ideal) x0 (ix2 b n) = -(logSoftmax (fun j : Fin 2 => x0 (ix3 b n j)) 0) := by
  rw [val_main_v16_apply, val_main_v15_apply, val_main_v14_apply, idx_class0, logSoftmax_at]
  rfl

/-- The float mask of the positive anchors at (b, n): the one-bit compare read unsigned. -/
private theorem maskPos_at (b : Fin 1024) (n : Fin 3125) :
    val_main_v19 (F := Ideal) x3 (ix2 b n) = maskR (x3 (ix2 b n)) 1#32 := by
  rw [val_main_v19_apply, val_main_v1_apply, val_main_v0_apply, val_main_c_apply]
  rfl

/-- The float mask of the negative anchors at (b, n). -/
private theorem maskNeg_at (b : Fin 1024) (n : Fin 3125) :
    val_main_v26 (F := Ideal) x3 (ix2 b n) = maskR (x3 (ix2 b n)) 0#32 := by
  rw [val_main_v26_apply, val_main_v3_apply, val_main_v2_apply, val_main_c_0_apply]
  rfl

/-- Row b's sum, from zero, of the class-1 cross-entropies over its positive anchors. -/
private theorem posSum_at (b : Fin 1024) :
    val_main_v21 (F := Ideal) x0 x3 (ix1 b)
      = w0 + ∑ n : Fin 3125, (-(logSoftmax (fun j : Fin 2 => x0 (ix3 b n j)) 1)) * maskR (x3 (ix2 b n)) 1#32 := by
  rw [val_main_v21_apply, val_main_cst_3_apply, Ideal.ofBits_def]
  refine congrArg (_ + ·) (Finset.sum_congr rfl fun n _ => ?_)
  have hi : idx_main_v21 (ix1 b) n = ix2 b n :=
    funext fun a => Fin.ext (by match a with | ⟨0, _⟩ => rfl | ⟨1, _⟩ => rfl)
  rw [hi, val_main_v20_apply, cePos_at, maskPos_at]
  rfl

/-- Row b's sum, from zero, of the class-0 cross-entropies over its negative anchors. -/
private theorem negSum_at (b : Fin 1024) :
    val_main_v28 (F := Ideal) x0 x3 (ix1 b)
      = w0 + ∑ n : Fin 3125, (-(logSoftmax (fun j : Fin 2 => x0 (ix3 b n j)) 0)) * maskR (x3 (ix2 b n)) 0#32 := by
  rw [val_main_v28_apply, val_main_cst_6_apply, Ideal.ofBits_def]
  refine congrArg (_ + ·) (Finset.sum_congr rfl fun n _ => ?_)
  have hi : idx_main_v28 (ix1 b) n = ix2 b n :=
    funext fun a => Fin.ext (by match a with | ⟨0, _⟩ => rfl | ⟨1, _⟩ => rfl)
  rw [hi, val_main_v27_apply, ceNeg_at, maskNeg_at]
  rfl

/-! ## The row's classification loss -/

/-- Row b's mean over its positive anchors, zero where it has none. -/
private theorem posMean_at (b : Fin 1024) :
    val_main_v25 (F := Ideal) x0 x3 (ix1 b)
      = Scalar.select (Ideal.cmp .ogt (cntR (fun n : Fin 3125 => x3 (ix2 b n)) 1#32) w0)
          (Ideal.div (w0 + ∑ n : Fin 3125, (-(logSoftmax (fun j : Fin 2 => x0 (ix3 b n j)) 1)) * maskR (x3 (ix2 b n)) 1#32)
            (max (cntR (fun n : Fin 3125 => x3 (ix2 b n)) 1#32) w1)) w0 := by
  rw [val_main_v25_apply, val_main_v18_apply, val_main_v17_apply, val_main_cst_apply, val_main_v24_apply,
    val_main_v23_apply, val_main_v22_apply, val_main_cst_4_apply, val_main_call1_v1_apply, val_main_call1_v0_apply,
    val_main_cst_5_apply, posSum_at, pos_count]
  rfl

/-- Row b's mean over its negative anchors. -/
private theorem negMean_at (b : Fin 1024) :
    val_main_v31 (F := Ideal) x0 x3 (ix1 b)
      = Ideal.div (w0 + ∑ n : Fin 3125, (-(logSoftmax (fun j : Fin 2 => x0 (ix3 b n j)) 0)) * maskR (x3 (ix2 b n)) 0#32)
          (max (cntR (fun n : Fin 3125 => x3 (ix2 b n)) 0#32) w1) := by
  rw [val_main_v31_apply, val_main_v30_apply, val_main_v29_apply, val_main_cst_7_apply, negSum_at, neg_count]
  rfl

/-- Row b's classification loss is the reference writing of it. -/
theorem row_at (b : Fin 1024) :
    val_main_v34 (F := Ideal) x0 x3 (ix1 b) = cPerR (fun k (n : Fin 3125) => x0 (ix3 b n k)) (fun n => x3 (ix2 b n)) := by
  rw [val_main_v34_apply, val_main_v32_apply, val_main_v33_apply, val_main_cst_8_apply, posMean_at, negMean_at]
  rfl

end Stages

/-! ## The result -/

/-- The first result, the classification loss. -/
theorem c_loss (x0 : (⟨S1024x3125x2, .f32⟩ : BufTy).Contents (Elt Ideal)) (x3 : (⟨S1024x3125, .i32⟩ : BufTy).Contents (Elt Ideal)) :
    val_main_v36 (F := Ideal) x0 x3 = fun _ => cLossR x0 x3 := by
  funext i
  have hrow : (fun b : Fin 1024 => val_main_v34 (F := Ideal) x0 x3 (ix1 b))
      = fun b => cPerR (fun k (n : Fin 3125) => x0 (ix3 b n k)) (fun n => x3 (ix2 b n)) := funext fun b => row_at x0 x3 b
  rw [val_main_v36_apply, val_main_v35_apply, val_main_cst_9_apply, val_main_cst_10_apply,
    sum_idx1 (n := 1024) (val_main_v34 (F := Ideal) x0 x3), hrow]
  rfl

end Cert.ReferenceIdeal.RefValue

end
-- ==== Proof.RefValueR.lean ====
/-
  The reference's second result is the reference writing of the regression loss.

  Read one operation at a time, the reference computes, for every anchor and coordinate, the smooth-L1 distance of the
  predicted from the target coordinate; sums the four coordinates from zero and divides by four; multiplies by the
  float mask of the positive anchors and sums along the anchors from zero; divides by the count of positive anchors
  (a 32-bit integer sum of the masks, converted to a float) clamped below by one; keeps that only where the count is
  positive; and takes the mean over the 1024 rows.
-/
import proofs.«429505_j27590869909512_4_alg».proof.Proof.RefRead
import proofs.«429505_j27590869909512_4_alg».proof.Proof.Spec
import proofs.«429505_j27590869909512_4_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.RefValueR

open Cert.ReferenceIdeal Cert.ReferenceIdeal.ReadP Cert.SiamRpnLoss Idealize.ShloMosaic Idealize.ShloMosaic.ValueIdx

/-! ## Sums and folds over the literal shapes -/

/-- A rank-1 index set is its one coordinate range … -/
private def idxEquiv1 {n : Nat} : (⟨1, ![n]⟩ : Shape).Idx ≃ Fin n where
  toFun i := i 0
  invFun b := ix1 b
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ b : Fin n, f (ix1 b) := by
  rw [← Equiv.sum_comp (idxEquiv1 (n := n)).symm f]
  rfl

/-- Row b with the anchor coordinate n put back is (b, n). -/
private theorem lift_row (h : (⟨2, ![1024, 3125]⟩ : Shape).Reduces [1] (⟨1, ![1024]⟩ : Shape)) (b : Fin 1024) (n : Fin 3125) :
    h.lift (ix1 b) n = ix2 b n := by
  funext c
  match c with
  | ⟨0, _⟩ => exact Fin.ext rfl
  | ⟨1, _⟩ => exact Fin.ext rfl

/-- A reduce with the 32-bit addition as body along the anchors, at row b, is the fold of that addition from the initial
    word over the anchor coordinate. -/
private theorem hostReduce_addi_row (x : (⟨2, ![1024, 3125]⟩ : Shape).Idx → BitVec 32) (init : (⟨0, ![]⟩ : Shape).Idx → BitVec 32)
    (h' : (⟨2, ![1024, 3125]⟩ : Shape).ReducesTo [1] (⟨1, ![1024]⟩ : Shape)) (hu : 0 < (⟨0, ![]⟩ : Shape).numel) (b : Fin 1024) :
    Host.reduce IntOp.addi x init h' hu (ix1 b)
      = (Finset.univ : Finset (Fin 3125)).fold IntOp.addi (init (Shape.Idx.first hu)) (fun n => x (ix2 b n)) := by
  have h : (⟨2, ![1024, 3125]⟩ : Shape).Reduces [1] (⟨1, ![1024]⟩ : Shape) := by decide
  refine (Host.reduce_eq_fold_single IntOp.addi x init h' h hu (ix1 b)).trans ?_
  exact congrArg (fun f : Fin 3125 → BitVec 32 => Finset.fold IntOp.addi (init (Shape.Idx.first hu)) f (Finset.univ : Finset (Fin 3125)))
    (funext fun n => congrArg x (lift_row h b n))

/-! ## The count of positive anchors of a row -/

/-- The broadcast integer constant 1 reads 1 everywhere. -/
private theorem v0_apply (i : S1024x3125.Idx) : val_main_v0 (F := Ideal) i = 1#32 := by
  rw [val_main_v0_apply]
  rfl

/-- The count of positive anchors of row b, converted to a float: the 32-bit sum, from zero, of the widened one-bit
    compares of the labels with 1, read signed. -/
private theorem count_row (x3 : (⟨S1024x3125, .i32⟩ : BufTy).Contents (Elt Ideal)) (b : Fin 1024) :
    val_main_v6 (F := Ideal) x3 (ix1 b) = cntR (fun n : Fin 3125 => x3 (ix2 b n)) 1#32 := by
  have hm : (fun n : Fin 3125 => val_main_v4 (F := Ideal) x3 (ix2 b n))
      = fun n : Fin 3125 => (IntOp.cmpi .eq (x3 (ix2 b n)) 1#32).setWidth 32 := funext fun n => by
    show (IntOp.cmpi .eq (x3 (ix2 b n)) (val_main_v0 (F := Ideal) (ix2 b n))).setWidth 32 = _
    rw [v0_apply]
  show ((BitVec.toInt (val_main_v5 (F := Ideal) x3 (ix1 b)) : ℝ) : EReal) = _
  unfold val_main_v5
  rw [hostReduce_addi_row, hm]
  rfl

/-! ## One anchor -/

/-- Smooth-L1 of one coordinate of one anchor. -/
private theorem smooth_apply (x1 x2 : (⟨S1024x3125x4, .f32⟩ : BufTy).Contents (Elt Ideal)) (i : S1024x3125x4.Idx) :
    val_main_v46 (F := Ideal) x1 x2 i = smoothL1 (x1 i) (x2 i) := by
  show Scalar.select (Ideal.cmp .olt (max (x1 i - x2 i) (-(x1 i - x2 i))) (val_main_v39 (F := Ideal) i))
      ((val_main_v41 (F := Ideal) i * (x1 i - x2 i)) * (x1 i - x2 i))
      (max (x1 i - x2 i) (-(x1 i - x2 i)) - val_main_v44 (F := Ideal) i) = _
  rw [val_main_v39_apply, val_main_v41_apply, val_main_v44_apply]
  rfl

/-- Anchor (b, n) with the coordinate k put back is (b, n, k). -/
private theorem idx47 (b : Fin 1024) (n : Fin 3125) (k : Fin 4) : idx_main_v47 (ix2 b n) k = ix3 b n k :=
  funext fun a => Fin.ext (by match a with | ⟨0, _⟩ => rfl | ⟨1, _⟩ => rfl | ⟨2, _⟩ => rfl)

/-- The mean of the four smooth-L1 terms of anchor (b, n): their sum from zero, divided by the word 4.0. -/
private theorem mean4_apply (x1 x2 : (⟨S1024x3125x4, .f32⟩ : BufTy).Contents (Elt Ideal)) (b : Fin 1024) (n : Fin 3125) :
    val_main_v49 (F := Ideal) x1 x2 (ix2 b n)
      = Ideal.div (w0 + ∑ k : Fin 4, smoothL1 (x1 (ix3 b n k)) (x2 (ix3 b n k))) w4 := by
  show Ideal.div (val_main_v47 (F := Ideal) x1 x2 (ix2 b n)) (val_main_v48 (F := Ideal) (ix2 b n)) = _
  rw [val_main_v47_apply, val_main_v48_apply]
  simp only [idx47, smooth_apply]
  rfl

/-- The positive mask of anchor (b, n) as a float: the one-bit compare read unsigned. -/
private theorem mask_apply (x3 : (⟨S1024x3125, .i32⟩ : BufTy).Contents (Elt Ideal)) (b : Fin 1024) (n : Fin 3125) :
    val_main_v50 (F := Ideal) x3 (ix2 b n) = maskR (x3 (ix2 b n)) 1#32 := by
  show ((BitVec.toNat (IntOp.cmpi .eq (x3 (ix2 b n)) (val_main_v0 (F := Ideal) (ix2 b n))) : ℝ) : EReal) = _
  rw [v0_apply]
  rfl

/-! ## One row -/

/-- Row b with the anchor coordinate n put back is (b, n). -/
private theorem idx52 (b : Fin 1024) (n : Fin 3125) : idx_main_v52 (ix1 b) n = ix2 b n :=
  funext fun a => Fin.ext (by match a with | ⟨0, _⟩ => rfl | ⟨1, _⟩ => rfl)

/-- The masked sum of row b: from zero, over the anchors, the mean of four times the positive mask. -/
private theorem sum_row (x1 x2 : (⟨S1024x3125x4, .f32⟩ : BufTy).Contents (Elt Ideal)) (x3 : (⟨S1024x3125, .i32⟩ : BufTy).Contents (Elt Ideal))
    (b : Fin 1024) :
    val_main_v52 (F := Ideal) x1 x2 x3 (ix1 b)
      = w0 + ∑ n : Fin 3125, Ideal.div (w0 + ∑ k : Fin 4, smoothL1 (x1 (ix3 b n k)) (x2 (ix3 b n k))) w4 * maskR (x3 (ix2 b n)) 1#32 := by
  rw [val_main_v52_apply]
  refine congrArg (w0 + ·) (Finset.sum_congr rfl fun n _ => ?_)
  rw [idx52]
  show val_main_v49 (F := Ideal) x1 x2 (ix2 b n) * val_main_v50 (F := Ideal) x3 (ix2 b n) = _
  rw [mean4_apply, mask_apply]

/-- The regression loss of row b is the reference writing of it. -/
private theorem r_row (x1 x2 : (⟨S1024x3125x4, .f32⟩ : BufTy).Contents (Elt Ideal)) (x3 : (⟨S1024x3125, .i32⟩ : BufTy).Contents (Elt Ideal))
    (b : Fin 1024) :
    val_main_v58 (F := Ideal) x1 x2 x3 (ix1 b)
      = rPerR (fun (k : Fin 4) (n : Fin 3125) => x1 (ix3 b n k)) (fun (k : Fin 4) (n : Fin 3125) => x2 (ix3 b n k))
          (fun n : Fin 3125 => x3 (ix2 b n)) := by
  show Scalar.select (Ideal.cmp .ogt (val_main_v6 (F := Ideal) x3 (ix1 b)) (val_main_v56 (F := Ideal) (ix1 b)))
      (Ideal.div (val_main_v52 (F := Ideal) x1 x2 x3 (ix1 b)) (max (val_main_v6 (F := Ideal) x3 (ix1 b)) (val_main_v53 (F := Ideal) (ix1 b))))
      (val_main_call3_v1 (F := Ideal) (ix1 b)) = _
  rw [count_row, sum_row, val_main_v56_apply, val_main_v53_apply, val_main_call3_v1_apply]
  rfl

/-! ## The result -/

/-- The second result, the regression loss. -/
theorem r_loss (x1 x2 : (⟨S1024x3125x4, .f32⟩ : BufTy).Contents (Elt Ideal)) (x3 : (⟨S1024x3125, .i32⟩ : BufTy).Contents (Elt Ideal)) :
    val_main_v60 (F := Ideal) x1 x2 x3 = fun _ => rLossR x1 x2 x3 := by
  funext i
  have hrow : (fun b : Fin 1024 => val_main_v58 (F := Ideal) x1 x2 x3 (ix1 b))
      = fun b : Fin 1024 => rPerR (fun (k : Fin 4) (n : Fin 3125) => x1 (ix3 b n k)) (fun (k : Fin 4) (n : Fin 3125) => x2 (ix3 b n k))
          (fun n : Fin 3125 => x3 (ix2 b n)) := funext fun b => r_row x1 x2 x3 b
  show Ideal.div (val_main_v59 (F := Ideal) x1 x2 x3 i) (val_main_cst_21 (F := Ideal) i) = _
  rw [val_main_v59_apply, sum_idx1, hrow]
  rfl

end Cert.ReferenceIdeal.RefValueR

end
-- ==== Proof.lean ====
/-
  A SiamRPN loss kernel against its jnp reference: three numbers, equal over the extended reals.

  Per batch row both programs compute a classification loss (half the sum of the mean cross-entropy over the row's
  positive anchors, zero when there are none, and the mean cross-entropy over its negative anchors) and a regression
  loss (the mean over the positive anchors of the per-anchor mean smooth-L1 distance of four box coordinates, zero
  when there are none); the results are the two means over the 1024 rows and the first plus five times the second.

  The kernel takes the classes and coordinates as separate planes cut by the host, works on 64 rows at a point, and
  writes the cross-entropies as softplus terms of the logit difference, the counts as float sums of the masks, and
  the mean of four as a product with 0.25. The reference takes the log-softmax with its shift by the row maximum,
  counts in 32-bit integers, and divides by 4. The two writings are stated once, with no program in sight
  (Proof/Spec.lean), and compared there (Proof/RowMath.lean): the cross-entropies agree for real logits — the one use
  of the precondition, which makes every logit a real (Proof/Finite.lean) —, the counts because at most 3125 ones do
  not wrap a 32-bit sum, the means of four on every extended real. The kernel's two output blocks are read onto its
  writing row by row (Proof/Payload.lean), its blocks onto the arrays and its host lines onto the results
  (Proof/KArrays.lean, Proof/KTail.lean); the reference's operations are read onto its writing one at a time
  (Proof/RefValue.lean, Proof/RefValueR.lean, over the stages of Proof/RefRead.lean), and its run is read in four stretches
  (Proof/RefRunM.lean, over the operation list of Proof/RefRun.lean), so that the whole composed term is never formed.
  The idealization rewrote no operation of the kernel, so there is nothing to preserve.
-/
import proofs.«429505_j27590869909512_4_alg».proof.Defs
import proofs.«429505_j27590869909512_4_alg».proof.Proof.Gen.Kernel
import proofs.«429505_j27590869909512_4_alg».proof.Proof.Gen.Kernel.Skeleton
import proofs.«429505_j27590869909512_4_alg».proof.Proof.Gen.Kernel.Launch
import proofs.«429505_j27590869909512_4_alg».proof.Proof.Gen.Kernel.Points
import proofs.«429505_j27590869909512_4_alg».proof.Proof.Gen.Kernel.Frame
import proofs.«429505_j27590869909512_4_alg».proof.Proof.Gen.KernelIdeal
import proofs.«429505_j27590869909512_4_alg».proof.Proof.Gen.KernelIdeal.Skeleton
import proofs.«429505_j27590869909512_4_alg».proof.Proof.Gen.KernelIdeal.Launch
import proofs.«429505_j27590869909512_4_alg».proof.Proof.Gen.KernelIdeal.Points
import proofs.«429505_j27590869909512_4_alg».proof.Proof.Gen.KernelIdeal.Frame
import proofs.«429505_j27590869909512_4_alg».proof.Proof.Gen.ReferenceIdeal
import proofs.«429505_j27590869909512_4_alg».proof.Proof.Gen.Pre_finite_inputs
import proofs.«429505_j27590869909512_4_alg».proof.Proof.RefRead
import proofs.«429505_j27590869909512_4_alg».proof.Proof.RefRunM
import proofs.«429505_j27590869909512_4_alg».proof.Proof.RowMath
import proofs.«429505_j27590869909512_4_alg».proof.Proof.Finite
import proofs.«429505_j27590869909512_4_alg».proof.Proof.KTail
import proofs.«429505_j27590869909512_4_alg».proof.Proof.RefValue
import proofs.«429505_j27590869909512_4_alg».proof.Proof.RefValueR
import Idealize.ShloMosaic.Adequacy
import Idealize.ShloMosaic.Init

set_option maxRecDepth 16384

noncomputable section

namespace Cert.Proof

open Idealize.ShloMosaic Idealize.ShloMosaic.TcCoe Idealize.SL.Sem Cert.SiamRpnLoss

/-- The reference's third result: the first plus the word 5.0 times the second. -/
theorem ref_total (x0 : (⟨Cert.ReferenceIdeal.S1024x3125x2, .f32⟩ : BufTy).Contents (Elt Ideal))
    (x1 x2 : (⟨Cert.ReferenceIdeal.S1024x3125x4, .f32⟩ : BufTy).Contents (Elt Ideal))
    (x3 : (⟨Cert.ReferenceIdeal.S1024x3125, .i32⟩ : BufTy).Contents (Elt Ideal)) :
    Cert.ReferenceIdeal.ReadP.val_main_v62 (F := Ideal) x0 x1 x2 x3 = fun _ => total (cLossR x0 x3) (rLossR x1 x2 x3) := by
  funext i
  show (Cert.ReferenceIdeal.ReadP.val_main_v36 (F := Ideal) x0 x3 i : EReal)
      + w5 * (Cert.ReferenceIdeal.ReadP.val_main_v60 (F := Ideal) x1 x2 x3 i : EReal) = _
  rw [Cert.ReferenceIdeal.RefValue.c_loss, Cert.ReferenceIdeal.RefValueR.r_loss]
  rfl

/-- The reference's run with each result at its stage of the arguments. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v36)
          = Cert.ReferenceIdeal.ReadP.val_main_v36 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v60)
          = Cert.ReferenceIdeal.ReadP.val_main_v60 (F := Ideal) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v62)
          = Cert.ReferenceIdeal.ReadP.val_main_v62 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  Cert.ReferenceIdeal.RunM.run (F := Ideal) m ρ

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (ref_run m ρ)

theorem preserves : Cert.preserves_Kernel_KernelIdeal := trivial

/-- Both programs end with the three results at the kernel writing of the losses of the kernel's arguments: the kernel by
    its run, the reference by its run read onto the reference writing, the agreement of the arguments, and the comparison
    of the two writings at real logits. -/
theorem algebraic : Cert.algebraic_KernelIdeal_ReferenceIdeal := by
  intro m g m' g' hpre hagree
  refine ⟨_, _, _, Cert.KernelIdeal.Tail.run m g, ?_⟩
  refine (θ_run Cert.ReferenceIdeal.defs _ _).mono (fun _ h c => ?_) (ref_run m' g')
  obtain ⟨h36, h60, h62, ha0, ha1, ha2, ha3⟩ := h c
  obtain ⟨e0, e1, e2, e3⟩ := hagree c
  have hfin : ∀ i, ∃ r : ℝ, (m ((c.tc : Thread Cert.KernelIdeal.nD Cert.KernelIdeal.τ).loc Cert.KernelIdeal.main_arg0) : Logits) i = (r : EReal) :=
    fun i => Cert.FiniteLogits.logits_real _ _ _ _ (hpre c) i
  refine ⟨?_, ?_, ?_, ha0, ha1, ha2, ha3⟩
  · rw [h36, Cert.ReferenceIdeal.RefValue.c_loss, e0, e3]
    exact funext fun _ => (cLossK_eq_cLossR _ _ hfin).symm
  · rw [h60, Cert.ReferenceIdeal.RefValueR.r_loss, e1, e2, e3]
    exact funext fun _ => (rLossK_eq_rLossR _ _ _).symm
  · rw [h62, ref_total, e0, e1, e2, e3]
    exact funext fun _ => by rw [cLossK_eq_cLossR _ _ hfin, rLossK_eq_rLossR]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
